-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8192x512 .f32) (main_arg1 : FVec F S8192x8192 .f32) (main_arg2 : FVec F S512x512 .f32) (main_arg3 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S1x512 : Shape := ⟨2, ![1, 512]⟩
abbrev S512x2048 : Shape := ⟨2, ![512, 2048]⟩
abbrev S2048x512 : Shape := ⟨2, ![2048, 512]⟩

abbrev nBuf : Space → Nat
  | .hbm => 7
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S8192x512, .f32⟩
  | .hbm, ⟨5, _⟩ => ⟨S1x512, .f32⟩
  | .hbm, ⟨6, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x2048, .f32⟩
  | .local _ .vmem, ⟨6, _⟩ => ⟨S512x2048, .f32⟩
  | .local _ .vmem, ⟨7, _⟩ => ⟨S2048x512, .f32⟩
  | .local _ .vmem, ⟨8, _⟩ => ⟨S2048x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  shapeCasts_S512_S1x512 : S512.ShapeCasts S1x512
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x512_S512x512_S512x512_1_0_0_1_n_n_wf : DotDims.WF S512x512 S512x512 S512x512 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x512.size a
  hwx0_2 : ∀ i : grid0.Coords, EltTy.bits .f32 = 32 ∨ (Rect.block (s := S8192x512) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x8192.size a
  hwx1_0 : ∀ i : grid1.Coords, EltTy.bits .f32 = 32 ∨ (Rect.block (s := S8192x8192) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S8192x512.size a
  hwx1_1 : ∀ i : grid1.Coords, EltTy.bits .f32 = 32 ∨ (Rect.block (s := S8192x512) S2048x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S8192x512.size a
  hwx1_3 : ∀ i : grid1.Coords, EltTy.bits .f32 = 32 ∨ (Rect.block (s := S8192x512) S512x512.size (cc1_transform_3 i) (hinb1_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S1x512 : Shape := ⟨2, ![1, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S8192x512, .f32⟩
  | .hbm, ⟨5, _⟩ => ⟨S8192x512, .f32⟩
  | .hbm, ⟨6, _⟩ => ⟨S1x512, .f32⟩
  | .hbm, ⟨7, _⟩ => ⟨S8192x512, .f32⟩
  | .hbm, ⟨8, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x512_S512x512_S8192x512_1_0_0_1_n_n_wf : DotDims.WF S8192x512 S512x512 S8192x512 [1] [0] [0] [1] [] []
  dot_S8192x8192_S8192x512_S8192x512_1_0_0_1_n_n_wf : DotDims.WF S8192x8192 S8192x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.Kernel.Project.lean ====
/-
  The projection call: sixteen grid points, point t taking rows 512·t … 512·t + 511 of the input X and the whole
  weight matrix W, and leaving in the output block the matrix product of the two (the accumulator of the product
  starting at zero). This module says what one run of the body does to its three buffers, what the three windows'
  staging buffers therefore hold after the body at every point, and that the body meets the pipeline's obligation
  at every point. Everything is stated at a parameter V: the contents of the core's buffers when the call is entered.
-/
import proofs.«160564_j996432413322_1_alg».proof.Proof.Gen.Kernel.Launch
import proofs.«160564_j996432413322_1_alg».proof.Proof.Gen.Kernel.Skeleton
import proofs.«160564_j996432413322_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Project

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the window's array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem zero_off : (![0, 0] : Fin 2 → Nat) = fun _ => 0 := funext fun a => by fin_cases a <;> rfl

/-- One run of the body: with the row block x and the weights w in the two input buffers, the body ends with both
    unchanged and the output buffer at the product of x and w. -/
theorem body_run (c : Dev nD) (E : Set ℕ) (i : grid0.Coords)
    (a1 : Memref sig .tc .vmem S512x512 .f32) (h1 : a1.IsWhole) (a2 : Memref sig .tc .vmem S512x512 .f32) (h2 : a2.IsWhole)
    (a3 : Memref sig .tc .vmem S512x512 .f32) (h3 : a3.IsWhole) (x w : Vec F S512x512 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (k0_pay1 x w)) -∗ K ⟨⟩))
      ⊢ wp frame (wpE (defs₀ (F := F)) Variants.none c none) E (cc0__proj_kernel i a1 h1 a2 h2 a3 h3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  -- the one store covers the whole buffer, and the two loads read the whole input buffers
  rw [View.read_writes_eq_canon _ _ _ (fun y => ⟨_, List.mem_singleton_self _, View.mem_set_unit_zero zero_off inb_S512x512_S512x512_0_0 y⟩),
    View.canon_unit_zero zero_off]
  simp only [View.readAt_eq_ld, View.ld_unit_zero (S := S512x512) zero_off]

/-- The call's proof data on core c. The arrays are as the call finds them. After the body at point t the two input
    buffers still hold their blocks (the row block of X, the weights) and the output buffer holds their product. The
    body uses no scratch and no generator, owes nothing, and the arrays are held whole. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => k0_pay1 (blk V c 0 t) (blk V c 1 t)
  Φ _ := Pipeline.ΦA spec0 c
  q _ := fullShare
  owed _ := 0

theorem dat_A (c : Dev nD) (w : Fin cfg0.W) : (dat V c).A w = V c (Pipeline.arrRef spec0 w) := by dsimp only [dat]
theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_o (c : Dev nD) (t : Fin cfg0.N) : (dat V c).after 2 t = k0_pay1 (blk V c 0 t) (blk V c 1 t) := by dsimp only [dat]

/-- The row-block buffer holds the row block of X at every point: it is fetched afresh at every point. -/
theorem before_x (c : Dev nD) (t : Fin cfg0.N) (d) : (dat V c).before 0 t d = blk V c 0 t :=
  ((dat V c).before_in_eq_fetched 0 rfl (fun _ => rfl) (fun _ _ _ => rfl)
    (fun t => by rw [after_x]; unfold Dat.blockOf blk; rw [dat_A]; try rfl) t d).trans
    (by unfold Dat.fetched Dat.blockOf blk; rw [dat_A]; try rfl)

/-- The weight buffer holds W at every point: fetched once, at the first point, and the body leaves it in place. -/
theorem before_w (c : Dev nD) (t : Fin cfg0.N) (d) : (dat V c).before 1 t d = blk V c 1 t :=
  ((dat V c).before_in_eq_fetched 1 rfl (fun _ => rfl) (fun _ _ _ => rfl)
    (fun t => by rw [after_w]; unfold Dat.blockOf blk; rw [dat_A]; try rfl) t d).trans
    (by unfold Dat.fetched Dat.blockOf blk; rw [dat_A]; try rfl)

/-- What the body is handed at point t, the three windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at a point: the input buffers hold their blocks, so one run of the body applies; nothing else is touched. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).Φ t.succ = (dat V c).Φ t.castSucc from rfl,
    show (dat V c).owesAt () t.succ = (dat V c).owesAt () t.castSucc from rfl,
    after_x, after_w, after_o]
  iintro ⟨HΦ, Ho, ⟨%d0, H0⟩, ⟨%d1, H1⟩, ⟨%d2, H2⟩⟩
  iapply (body_run c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation (c : Dev nD) : BodyObligation (dat (F := F) V c) (defs₀ (F := F)) Variants.none () Set.univ := fun t => by
  rw [bigSep_W0, bigSep_W0]
  exact body_at V c t

end Cert.Kernel.Project

end
-- ==== Proof.Kernel.Aggregate.lean ====
/-
  The aggregation call: a 16 × 4 grid, point t = 4·i + k taking the 512 × 2048 tile (i, k) of the adjacency matrix A,
  the 2048 × 512 row tile k of the support matrix S and the bias row, with a 512 × 512 accumulator kept in scratch
  memory from point to point. At k = 0 the accumulator is first set to zero; at every point the product of the two
  tiles is added to it; at k = 3 the accumulator plus the bias row (the same row under every row of the block) is
  stored into the output block i, which is written back after that point only.

  This module says what one run of the body does in each of the three situations a point can be in (first tile of a
  row block, a middle tile, the last tile), what the accumulator therefore holds after every point (`acc`, by
  recursion on the point), the call's invariant (the accumulator's contents between two points), its proof data, and
  that the body meets the pipeline's obligation at every point. Everything is stated at a parameter V: the contents
  of the core's buffers when the call is entered.
-/
import proofs.«160564_j996432413322_1_alg».proof.Proof.Gen.Kernel.Launch
import proofs.«160564_j996432413322_1_alg».proof.Proof.Gen.Kernel.Skeleton
import proofs.«160564_j996432413322_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Aggregate

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the window's array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem zero_off : (![0, 0] : Fin 2 → Nat) = fun _ => 0 := funext fun a => by fin_cases a <;> rfl

/-! ## Where a point stands in its row block -/

/-- The point is the first tile of its row block (k = 0): the body's first branch, as the body computes it. -/
abbrev isFirst (i : grid1.Coords) : Prop :=
  (Scalar.cmpi .ne (Scalar.extui (Scalar.cmpi .eq (BitVec.ofNat 32 (i 1).val) 0#32)) 0#32) = 1#1
/-- The point is the last tile of its row block (k = 3): the body's second branch. -/
abbrev isLast (i : grid1.Coords) : Prop := k1_cond2 i = 1#1

theorem isFirst_iff : ∀ t : Fin cfg1.N, isFirst (grid1.coords t) ↔ t.val % 4 = 0 :=
  (by decide +kernel : ∀ t : Fin grid1.N, isFirst (grid1.coords t) ↔ t.val % 4 = 0)
theorem isLast_iff : ∀ t : Fin cfg1.N, isLast (grid1.coords t) ↔ t.val % 4 = 3 :=
  (by decide +kernel : ∀ t : Fin grid1.N, isLast (grid1.coords t) ↔ t.val % 4 = 3)

/-- The inputs' windows are never idle; the output's is idle exactly off the last tile, -/
theorem live_in : ∀ (w : Fin cfg1.W), w.val < 3 → ∀ i, cfg1.idle w i = false := by
  intro w hw i
  match w, hw with
  | ⟨0, _⟩, _ => rfl
  | ⟨1, _⟩, _ => rfl
  | ⟨2, _⟩, _ => rfl
theorem idle_out : ∀ t : Fin cfg1.N, ¬isLast (grid1.coords t) → cfg1.idle 3 (grid1.coords t) = true := by decide +kernel
theorem live_out : ∀ t : Fin cfg1.N, isLast (grid1.coords t) → cfg1.idle 3 (grid1.coords t) = false := by decide +kernel
/-- and is not written back there. -/
theorem noflush_out : ∀ t : Fin cfg1.N, ¬isLast (grid1.coords t) → (cfg1.win 3).flush t = false := by decide +kernel

/-! ## One run of the body, in each situation -/

/-- The scratch accumulator as the body is handed it. -/
abbrev scr : Memref sig .tc .vmem S512x512 .f32 := Memref.whole cc1_scratch0

/-- First tile of a row block: whatever the accumulator held, it ends at zero plus the product of the two tiles. The
    bias and output buffers are not touched. -/
theorem run_first (c : Dev nD) (E : Set ℕ) (i : grid1.Coords)
    (a2 : Memref sig .tc .vmem S512x2048 .f32) (h2 : a2.IsWhole) (a3 : Memref sig .tc .vmem S2048x512 .f32) (h3 : a3.IsWhole)
    (a4 : Memref sig .tc .vmem S1x512 .f32) (h4 : a4.IsWhole) (a5 : Memref sig .tc .vmem S512x512 .f32) (h5 : a5.IsWhole)
    (a6 : Memref sig .tc .vmem S512x512 .f32) (h6 : a6.IsWhole) (hf : isFirst i) (hl : ¬isLast i)
    (x : Vec F S512x2048 .f32) (s : Vec F S2048x512 .f32) (K : PUnit → sProp 𝕄) :
    iprop(owns (c : Thread nD τ) a2 fullShare x ∗ owns (c : Thread nD τ) a3 fullShare s ∗ (∃ d, owns (c : Thread nD τ) a6 fullShare d)
        ∗ (iprop(owns (c : Thread nD τ) a2 fullShare x ∗ owns (c : Thread nD τ) a3 fullShare s
            ∗ owns (c : Thread nD τ) a6 fullShare (k1_pay2 x s k1_pay1)) -∗ K ⟨⟩))
      ⊢ wp frame (wpE (defs₀ (F := F)) Variants.none c none) E (cc1__gc_kernel i a2 h2 a3 h3 a4 h4 a5 h5 a6 h6) K := by
  simp only [cc1__gc_kernel_eq_skeleton]; unfold cc1__gc_kernel_skel
  unfold owns
  iintro ⟨⟨%f2, %hf2, H2⟩, ⟨%f3, %hf3, H3⟩, ⟨%d6, %f6, -, H6⟩, Hk⟩
  subst hf2; subst hf3
  sl_exec (disch := first | exact hf | exact hl)
  sl_step
  iapply Hk
  isplitl [H2]
  · iexists f2; isplitr; · ipureintro; rfl
    iexact H2
  isplitl [H3]
  · iexists f3; isplitr; · ipureintro; rfl
    iexact H3
  iexists _; isplitr
  swap; · iexact H6
  ipureintro
  sl_unfold_words
  rw [View.read_writes_eq_canon _ _ _ (fun y => ⟨_, List.mem_cons_self, View.mem_set_unit_zero zero_off inb_S512x512_S512x512_0_0 y⟩),
    View.canon_cons_unit_zero (S := S512x512) zero_off]
  simp only [View.readAt_eq_ld, View.ld_unit_zero (S := S512x2048) zero_off, View.ld_unit_zero (S := S2048x512) zero_off,
    View.readCov_unit_zero (S := S512x512) _ zero_off]

/-- A middle tile: the accumulator, holding a, ends at a plus the product of the two tiles. -/
theorem run_mid (c : Dev nD) (E : Set ℕ) (i : grid1.Coords)
    (a2 : Memref sig .tc .vmem S512x2048 .f32) (h2 : a2.IsWhole) (a3 : Memref sig .tc .vmem S2048x512 .f32) (h3 : a3.IsWhole)
    (a4 : Memref sig .tc .vmem S1x512 .f32) (h4 : a4.IsWhole) (a5 : Memref sig .tc .vmem S512x512 .f32) (h5 : a5.IsWhole)
    (a6 : Memref sig .tc .vmem S512x512 .f32) (h6 : a6.IsWhole) (hf : ¬isFirst i) (hl : ¬isLast i)
    (x : Vec F S512x2048 .f32) (s : Vec F S2048x512 .f32) (a : Vec F S512x512 .f32) (K : PUnit → sProp 𝕄) :
    iprop(owns (c : Thread nD τ) a2 fullShare x ∗ owns (c : Thread nD τ) a3 fullShare s ∗ owns (c : Thread nD τ) a6 fullShare a
        ∗ (iprop(owns (c : Thread nD τ) a2 fullShare x ∗ owns (c : Thread nD τ) a3 fullShare s
            ∗ owns (c : Thread nD τ) a6 fullShare (k1_pay2 x s a)) -∗ K ⟨⟩))
      ⊢ wp frame (wpE (defs₀ (F := F)) Variants.none c none) E (cc1__gc_kernel i a2 h2 a3 h3 a4 h4 a5 h5 a6 h6) K := by
  simp only [cc1__gc_kernel_eq_skeleton]; unfold cc1__gc_kernel_skel
  unfold owns
  iintro ⟨⟨%f2, %hf2, H2⟩, ⟨%f3, %hf3, H3⟩, ⟨%f6, %hf6, H6⟩, Hk⟩
  subst hf2; subst hf3; subst hf6
  sl_exec (disch := first | exact hf | exact hl)
  sl_step
  iapply Hk
  isplitl [H2]
  · iexists f2; isplitr; · ipureintro; rfl
    iexact H2
  isplitl [H3]
  · iexists f3; isplitr; · ipureintro; rfl
    iexact H3
  iexists _; isplitr
  swap; · iexact H6
  ipureintro
  sl_unfold_words
  rw [View.read_writes_eq_canon _ _ _ (fun y => ⟨_, List.mem_cons_self, View.mem_set_unit_zero zero_off inb_S512x512_S512x512_0_0 y⟩),
    View.canon_cons_unit_zero (S := S512x512) zero_off]
  simp only [View.readAt_eq_ld, View.ld_unit_zero (S := S512x2048) zero_off, View.ld_unit_zero (S := S2048x512) zero_off,
    View.ld_unit_zero (S := S512x512) zero_off]

set_option maxHeartbeats 2000000 in
/-- The last tile of a row block: the accumulator, holding a, ends at a plus the product of the two tiles, and the
    output buffer at that sum plus the bias row b under every row. -/
theorem run_last (c : Dev nD) (E : Set ℕ) (i : grid1.Coords)
    (a2 : Memref sig .tc .vmem S512x2048 .f32) (h2 : a2.IsWhole) (a3 : Memref sig .tc .vmem S2048x512 .f32) (h3 : a3.IsWhole)
    (a4 : Memref sig .tc .vmem S1x512 .f32) (h4 : a4.IsWhole) (a5 : Memref sig .tc .vmem S512x512 .f32) (h5 : a5.IsWhole)
    (a6 : Memref sig .tc .vmem S512x512 .f32) (h6 : a6.IsWhole) (hf : ¬isFirst i) (hl : isLast i)
    (x : Vec F S512x2048 .f32) (s : Vec F S2048x512 .f32) (b : Vec F S1x512 .f32) (a : Vec F S512x512 .f32) (K : PUnit → sProp 𝕄) :
    iprop(owns (c : Thread nD τ) a2 fullShare x ∗ owns (c : Thread nD τ) a3 fullShare s ∗ owns (c : Thread nD τ) a4 fullShare b
        ∗ (∃ d, owns (c : Thread nD τ) a5 fullShare d) ∗ owns (c : Thread nD τ) a6 fullShare a
        ∗ (iprop(owns (c : Thread nD τ) a2 fullShare x ∗ owns (c : Thread nD τ) a3 fullShare s ∗ owns (c : Thread nD τ) a4 fullShare b
            ∗ owns (c : Thread nD τ) a5 fullShare (k1_pay3 (k1_pay2 x s a) b)
            ∗ owns (c : Thread nD τ) a6 fullShare (k1_pay2 x s a)) -∗ K ⟨⟩))
      ⊢ wp frame (wpE (defs₀ (F := F)) Variants.none c none) E (cc1__gc_kernel i a2 h2 a3 h3 a4 h4 a5 h5 a6 h6) K := by
  simp only [cc1__gc_kernel_eq_skeleton]; unfold cc1__gc_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2; subst hf3; subst hf4; subst hf6
  sl_exec (disch := first | exact hf | exact hl)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (fun y => ⟨_, List.mem_cons_self, View.mem_set_unit_zero zero_off inb_S512x512_S512x512_0_0 y⟩),
      View.canon_cons_unit_zero (S := S512x512) zero_off]
    simp only [View.readAt_eq_ld, View.ld_unit_zero (S := S512x2048) zero_off, View.ld_unit_zero (S := S2048x512) zero_off,
      View.ld_unit_zero (S := S512x512) zero_off, View.ld_unit_zero (S := S1x512) zero_off,
      View.readCov_unit_zero (S := S512x512) _ zero_off]
  iexists _; isplitr
  swap; · iexact H6
  ipureintro
  sl_unfold_words
  rw [View.read_writes_eq_canon _ _ _ (fun y => ⟨_, List.mem_cons_self, View.mem_set_unit_zero zero_off inb_S512x512_S512x512_0_0 y⟩),
    View.canon_cons_unit_zero (S := S512x512) zero_off]
  simp only [View.readAt_eq_ld, View.ld_unit_zero (S := S512x2048) zero_off, View.ld_unit_zero (S := S2048x512) zero_off,
    View.ld_unit_zero (S := S512x512) zero_off]

end Cert.Kernel.Aggregate

end
-- ==== Proof.Kernel.AggregateBody.lean ====
/-
  The aggregation call's accumulator from point to point, its invariant, its proof data, and the body's obligation.

  After point t = 4·i + k the scratch accumulator holds the partial sum over the tiles 0 … k of row block i:
      acc t = (zero if k = 0, else acc (t − 1)) + (tile (i, k) of A) · (row tile k of S).
  Between two points the invariant holds the accumulator at exactly that; before the first point it holds anything.
  At a last tile (k = 3) the output buffer is left at acc t plus the bias row; elsewhere the body does not touch it.
-/
import proofs.«160564_j996432413322_1_alg».proof.Proof.Gen.Kernel.Launch
import proofs.«160564_j996432413322_1_alg».proof.Proof.Gen.Kernel.Skeleton
import proofs.«160564_j996432413322_1_alg».proof.Proof.Gen.Kernel.Points
import proofs.«160564_j996432413322_1_alg».proof.Proof.Kernel.Aggregate
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Aggregate

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator after each point -/

/-- What the scratch accumulator holds after the body at position n of the grid (n = 4·i + k). -/
def acc (c : Dev nD) : (n : ℕ) → n < cfg1.N → Vec F S512x512 .f32
  | 0, h => k1_pay2 (blk V c 0 ⟨0, h⟩) (blk V c 1 ⟨0, h⟩) k1_pay1
  | n + 1, h => k1_pay2 (blk V c 0 ⟨n + 1, h⟩) (blk V c 1 ⟨n + 1, h⟩)
      (if (n + 1) % 4 = 0 then k1_pay1 else acc c n (Nat.lt_of_succ_lt h))

/-- At the first tile of a row block the sum starts from zero. -/
theorem acc_first (c : Dev nD) (t : Fin cfg1.N) (h : t.val % 4 = 0) :
    acc V c t.val t.isLt = k1_pay2 (blk V c 0 t) (blk V c 1 t) k1_pay1 := by
  obtain ⟨n, hn⟩ := t
  cases n with
  | zero => rfl
  | succ n => show k1_pay2 _ _ (if (n + 1) % 4 = 0 then _ else _) = _; rw [if_pos h]

/-- At any other tile it continues from the point before. -/
theorem acc_next (c : Dev nD) (t : Fin cfg1.N) (h : ¬t.val % 4 = 0) :
    acc V c t.val t.isLt = k1_pay2 (blk V c 0 t) (blk V c 1 t)
      (acc V c (t.val - 1) (Nat.lt_of_le_of_lt (Nat.sub_le _ _) t.isLt)) := by
  obtain ⟨n, hn⟩ := t
  cases n with
  | zero => exact absurd (Nat.zero_mod _) h
  | succ n => show k1_pay2 _ _ (if (n + 1) % 4 = 0 then _ else _) = _; rw [if_neg h]; rfl

/-! ## The invariant -/

/-- The call's invariant with the accumulator at contents X: the core's other scoped buffers (the projection call's
    staging buffers) at anything, the accumulator at X, the generator register at some state. -/
def phiWith (c : Dev nD) (X : Vec F S512x512 .f32) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ owns (c : Thread nD τ) scr fullShare X) ∗ ∃ r, prngReg c r)

/-- The same with the accumulator at anything: this is what the pipeline hands the call and takes back. -/
def phiAny (c : Dev nD) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ d, owns (c : Thread nD τ) scr fullShare d)) ∗ ∃ r, prngReg c r)

theorem phiA_eq (c : Dev nD) : (Pipeline.ΦA spec1 c : sProp 𝕄) = phiAny c := by
  unfold Pipeline.ΦA phiAny; rw [scopedRest1_eq]; simp only [scr, owns_whole]; try rfl

theorem phiWith_any (c : Dev nD) (X : Vec F S512x512 .f32) : phiWith c X ⊢ (phiAny c : sProp 𝕄) := by
  unfold phiWith phiAny
  iintro ⟨⟨H1, H2, H3, H4, H5, HS⟩, Hg⟩
  isplitr [Hg]
  · isplitl [H1]; · iexact H1
    isplitl [H2]; · iexact H2
    isplitl [H3]; · iexact H3
    isplitl [H4]; · iexact H4
    isplitl [H5]; · iexact H5
    iexists _; iexact HS
  iexact Hg

/-- Before position n: anything before the first point, then the accumulator at what the point before left. -/
def phiAt (c : Dev nD) : (n : ℕ) → n ≤ cfg1.N → sProp 𝕄
  | 0, _ => Pipeline.ΦA spec1 c
  | n + 1, h => phiWith c (acc V c n h)

theorem phiAt_pos (c : Dev nD) (n : ℕ) (h : n ≤ cfg1.N) (hz : n ≠ 0) :
    phiAt V c n h = phiWith c (acc V c (n - 1) (by omega)) := by
  cases n with
  | zero => exact absurd rfl hz
  | succ n => rfl

/-! ## The proof data -/

/-- The call's proof data on core c. The arrays are as the call finds them. After the body at point t the three input
    buffers still hold their blocks; the output buffer, at a last tile, holds the accumulator plus the bias row (at the
    other points the body leaves it alone and this entry is not consulted). The invariant is `phiAt`. Nothing is owed
    and the arrays are held whole. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => k1_pay3 (acc V c t.val t.isLt) (blk V c 2 t)
  Φ t := phiAt V c t.val (Nat.le_of_lt_succ t.isLt)
  q _ := fullShare
  owed _ := 0

theorem dat_A (c : Dev nD) (w : Fin cfg1.W) : (dat V c).A w = V c (Pipeline.arrRef spec1 w) := by dsimp only [dat]
theorem after_a (c : Dev nD) (t : Fin cfg1.N) : (dat V c).after 0 t = blk V c 0 t := by dsimp only [dat]
theorem after_s (c : Dev nD) (t : Fin cfg1.N) : (dat V c).after 1 t = blk V c 1 t := by dsimp only [dat]
theorem after_b (c : Dev nD) (t : Fin cfg1.N) : (dat V c).after 2 t = blk V c 2 t := by dsimp only [dat]
theorem after_o (c : Dev nD) (t : Fin cfg1.N) :
    (dat V c).after 3 t = k1_pay3 (acc V c t.val t.isLt) (blk V c 2 t) := by dsimp only [dat]

theorem phi_start (c : Dev nD) (t : Fin cfg1.N) : (dat V c).Φ t.castSucc = phiAt V c t.val (Nat.le_of_lt t.isLt) := by
  dsimp only [dat]; simp only [Fin.coe_castSucc]
theorem phi_end (c : Dev nD) (t : Fin cfg1.N) : (dat V c).Φ t.succ = phiWith c (acc V c t.val t.isLt) := rfl

/-- Each input buffer holds its block at every point, whether fetched there or kept from the point before. -/
theorem before_a (c : Dev nD) (t : Fin cfg1.N) (d) : (dat V c).before 0 t d = blk V c 0 t :=
  ((dat V c).before_in_eq_fetched 0 rfl (fun _ => rfl) (fun _ _ _ => rfl)
    (fun t => by rw [after_a]; unfold Dat.blockOf blk; rw [dat_A]; try rfl) t d).trans
    (by unfold Dat.fetched Dat.blockOf blk; rw [dat_A]; try rfl)
theorem before_s (c : Dev nD) (t : Fin cfg1.N) (d) : (dat V c).before 1 t d = blk V c 1 t :=
  ((dat V c).before_in_eq_fetched 1 rfl (fun _ => rfl) (fun _ _ _ => rfl)
    (fun t => by rw [after_s]; unfold Dat.blockOf blk; rw [dat_A]; try rfl) t d).trans
    (by unfold Dat.fetched Dat.blockOf blk; rw [dat_A]; try rfl)
theorem before_b (c : Dev nD) (t : Fin cfg1.N) (d) : (dat V c).before 2 t d = blk V c 2 t :=
  ((dat V c).before_in_eq_fetched 2 rfl (fun _ => rfl) (fun _ _ _ => rfl)
    (fun t => by rw [after_b]; unfold Dat.blockOf blk; rw [dat_A]; try rfl) t d).trans
    (by unfold Dat.fetched Dat.blockOf blk; rw [dat_A]; try rfl)

/-- What the pipeline hands the call is the invariant before the first point, -/
theorem phi_in (c : Dev nD) : Pipeline.ΦA spec1 c ⊢ (dat V c).Φ 0 := by
  rw [show (dat V c).Φ 0 = phiAt V c 0 (Nat.zero_le _) from rfl]
  exact Idealize.SL.BI.Entails.refl _

/-- and the invariant after the last point gives it back, the accumulator's contents forgotten. -/
theorem phi_out (c : Dev nD) : (dat V c).Φ (Fin.last cfg1.N) ⊢ Pipeline.ΦA spec1 c := by
  rw [show (dat V c).Φ (Fin.last cfg1.N) = phiAt V c (Fin.last cfg1.N).val (Nat.le_of_lt_succ (Fin.last cfg1.N).isLt) from rfl,
    phiAt_pos V c _ _ (by rw [Fin.val_last]; have : cfg1.N = 64 := N_1; omega), phiA_eq]
  exact phiWith_any c _

/-! ## The body obligation -/

/-- What the body is handed at point t, the four windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it hands back. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_a (c : Dev nD) (t : Fin cfg1.N) :
    (dat V c).leavesExact 0 t = owns (c : Thread nD τ) (st1_0 t) fullShare (blk V c 0 t) := by
  unfold Dat.leavesExact; rw [live_in 0 (by decide), after_a]
theorem leaves_s (c : Dev nD) (t : Fin cfg1.N) :
    (dat V c).leavesExact 1 t = owns (c : Thread nD τ) (st1_1 t) fullShare (blk V c 1 t) := by
  unfold Dat.leavesExact; rw [live_in 1 (by decide), after_s]
theorem leaves_b (c : Dev nD) (t : Fin cfg1.N) :
    (dat V c).leavesExact 2 t = owns (c : Thread nD τ) (st1_2 t) fullShare (blk V c 2 t) := by
  unfold Dat.leavesExact; rw [live_in 2 (by decide), after_b]

set_option maxHeartbeats 2000000 in
/-- The body at a point, by where the point stands in its row block. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_a, before_s, before_b]
  rw [show (dat V c).owesAt () t.succ = (dat V c).owesAt () t.castSucc from rfl, phi_end, leaves_a, leaves_s, leaves_b, phi_start]
  have hN : t.val < 64 := lt_of_lt_of_eq t.isLt (show cfg1.N = 64 from N_1)
  by_cases h0 : t.val % 4 = 0
  · -- first tile: the accumulator is handed at anything
    have hf : isFirst (grid1.coords t) := (isFirst_iff t).mpr h0
    have hl : ¬isLast (grid1.coords t) := fun h => by have := (isLast_iff t).mp h; omega
    rw [Dat.leavesExact_idle (dat V c) 3 t (idle_out t hl) (noflush_out t hl), acc_first V c t h0]
    have hany : phiAt V c t.val (Nat.le_of_lt t.isLt) ⊢ (phiAny c : sProp 𝕄) := by
      by_cases hz : t.val = 0
      · have : phiAt V c t.val (Nat.le_of_lt t.isLt) = Pipeline.ΦA spec1 c := by
          obtain ⟨n, hn⟩ := t; dsimp only at hz; subst hz; rfl
        rw [this, phiA_eq]
      · rw [phiAt_pos V c _ _ hz]; exact phiWith_any c _
    iintro ⟨HΦ, Ho, ⟨%d0, H0⟩, ⟨%d1, H1⟩, ⟨%d2, H2⟩, H3⟩
    ihave HΦ' := hany $$ HΦ
    unfold phiAny phiWith
    icases HΦ' with ⟨⟨R1, R2, R3, R4, R5, HS⟩, Hg⟩
    iapply (run_first c Set.univ _ _ _ _ _ _ _ _ _ _ _ hf hl (blk V c 0 t) (blk V c 1 t) _)
    isplitl [H0]; · iexact H0
    isplitl [H1]; · iexact H1
    isplitl [HS]; · iexact HS
    iintro ⟨H0, H1, HS⟩
    isplitl [R1 R2 R3 R4 R5 HS Hg]
    · isplitr [Hg]
      · isplitl [R1]; · iexact R1
        isplitl [R2]; · iexact R2
        isplitl [R3]; · iexact R3
        isplitl [R4]; · iexact R4
        isplitl [R5]; · iexact R5
        iexact HS
      iexact Hg
    isplitl [Ho]; · iexact Ho
    isplitl [H0]; · iexact H0
    isplitl [H1]; · iexact H1
    isplitl [H2]; · iexact H2
    iexact H3
  · have hf : ¬isFirst (grid1.coords t) := fun h => h0 ((isFirst_iff t).mp h)
    have hz : t.val ≠ 0 := fun h => h0 (by rw [h])
    rw [phiAt_pos V c _ _ hz, acc_next V c t h0]
    by_cases h3 : t.val % 4 = 3
    · -- last tile: the output buffer is stored
      have hl : isLast (grid1.coords t) := (isLast_iff t).mpr h3
      rw [show (dat V c).leavesExact 3 t = owns (c : Thread nD τ) (st1_3 t) fullShare ((dat V c).after 3 t) from by
        unfold Dat.leavesExact; rw [live_out t hl], after_o, acc_next V c t h0]
      unfold phiWith
      iintro ⟨⟨⟨R1, R2, R3, R4, R5, HS⟩, Hg⟩, Ho, ⟨%d0, H0⟩, ⟨%d1, H1⟩, ⟨%d2, H2⟩, ⟨%d3, H3⟩⟩
      iapply (run_last c Set.univ _ _ _ _ _ _ _ _ _ _ _ hf hl (blk V c 0 t) (blk V c 1 t) (blk V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [R1 R2 R3 R4 R5 HS Hg]
      · isplitr [Hg]
        · isplitl [R1]; · iexact R1
          isplitl [R2]; · iexact R2
          isplitl [R3]; · iexact R3
          isplitl [R4]; · iexact R4
          isplitl [R5]; · iexact R5
          iexact HS
        iexact Hg
      isplitl [Ho]; · iexact Ho
      isplitl [H0]; · iexact H0
      isplitl [H1]; · iexact H1
      isplitl [H2]; · iexact H2
      iexact H3
    · -- a middle tile
      have hl : ¬isLast (grid1.coords t) := fun h => h3 ((isLast_iff t).mp h)
      rw [Dat.leavesExact_idle (dat V c) 3 t (idle_out t hl) (noflush_out t hl)]
      unfold phiWith
      iintro ⟨⟨⟨R1, R2, R3, R4, R5, HS⟩, Hg⟩, Ho, ⟨%d0, H0⟩, ⟨%d1, H1⟩, ⟨%d2, H2⟩, H3⟩
      iapply (run_mid c Set.univ _ _ _ _ _ _ _ _ _ _ _ hf hl (blk V c 0 t) (blk V c 1 t) _ _)
      isplitl [H0]; · iexact H0
      isplitl [H1]; · iexact H1
      isplitl [HS]; · iexact HS
      iintro ⟨H0, H1, HS⟩
      isplitl [R1 R2 R3 R4 R5 HS Hg]
      · isplitr [Hg]
        · isplitl [R1]; · iexact R1
          isplitl [R2]; · iexact R2
          isplitl [R3]; · iexact R3
          isplitl [R4]; · iexact R4
          isplitl [R5]; · iexact R5
          iexact HS
        iexact Hg
      isplitl [Ho]; · iexact Ho
      isplitl [H0]; · iexact H0
      isplitl [H1]; · iexact H1
      isplitl [H2]; · iexact H2
      iexact H3

/-- The pipeline's obligation on the body, at every point. -/
theorem body_obligation (c : Dev nD) : BodyObligation (dat (F := F) V c) (defs₀ (F := F)) Variants.none () Set.univ := fun t => by
  rw [bigSep_W1, bigSep_W1]
  exact body_at V c t

end Cert.Kernel.Aggregate

end
-- ==== Proof.Kernel.Whole.lean ====
/-
  The whole program: the projection call, the host line that lays the bias out as a [1, 512] row, the aggregation call.

  The contents of the core's buffers are followed through the three items: B0 at launch; B1 after the projection call
  (its result array at what its write-backs leave, every other buffer untouched); B2 after the host line; B3 after the
  aggregation call (likewise). Each call enters the pipeline from "every unscoped buffer at the contents before it, the
  generator register at some state, nothing owed" and leaves at the same with the contents after it. The run ends with
  every unscoped buffer at B3; the four arguments of the program are read back through the three items to their launch
  contents, and the program's result is the aggregation call's result array.
-/
import proofs.«160564_j996432413322_1_alg».proof.Proof.Gen.Kernel.Launch
import proofs.«160564_j996432413322_1_alg».proof.Proof.Gen.Kernel.Skeleton
import proofs.«160564_j996432413322_1_alg».proof.Proof.Gen.Kernel.Points
import proofs.«160564_j996432413322_1_alg».proof.Proof.Gen.Kernel.Regions
import proofs.«160564_j996432413322_1_alg».proof.Proof.Kernel.Project
import proofs.«160564_j996432413322_1_alg».proof.Proof.Kernel.AggregateBody
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev B0 : Dev nD → Valuation τ sig (Elt F) := fun c b => m (c, b)
/-- The same read at the TensorCore's references: what the projection call's proof data take. -/
abbrev E0 : (c : Dev nD) → (b : Ref sig .tc) → Buf (Elt F) ((c : Thread nD τ).loc b) := fun c b => B0 m c b
/-- After the projection call. -/
def B1 (c : Dev nD) : Valuation τ sig (Elt F) :=
  Pipeline.withArrays spec0 c (B0 m c) fun w => (Project.dat (E0 m) c).arrAt w cfg0.N
abbrev E1 : (c : Dev nD) → (b : Ref sig .tc) → Buf (Elt F) ((c : Thread nD τ).loc b) := fun c b => B1 m c b
/-- After the host line (the aggregation call's entry). -/
abbrev B2 : Dev nD → Valuation τ sig (Elt F) := fun c => StableHlo.after hostOps1 (B1 m c)
abbrev E2 : (c : Dev nD) → (b : Ref sig .tc) → Buf (Elt F) ((c : Thread nD τ).loc b) := fun c b => B2 m c b
/-- After the aggregation call. -/
def B3 (c : Dev nD) : Valuation τ sig (Elt F) :=
  Pipeline.withArrays spec1 c (B2 m c) fun w => (Aggregate.dat (E2 m) c).arrAt w cfg1.N
abbrev E3 : (c : Dev nD) → (b : Ref sig .tc) → Buf (Elt F) ((c : Thread nD τ).loc b) := fun c b => B3 m c b

theorem B1_arr (c : Dev nD) (w : Fin cfg0.W) :
    B1 m c (Proc.devRef .tc (Pipeline.arrRef spec0 w)) = (Project.dat (E0 m) c).arrAt w cfg0.N := by
  unfold B1; exact Pipeline.withArrays_arr spec0 launch0.win.arr_inj c _ _ w
theorem B1_other (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
theorem B2_other (c : Dev nD) (b : Ref sig .tc) (hb : b ∉ hostOps1_W) :
    B2 m c (Proc.devRef .tc b) = B1 m c (Proc.devRef .tc b) :=
  StableHlo.after_of_writes_sub hostOps1 _ hostOps1_writes hb
theorem B3_arr (c : Dev nD) (w : Fin cfg1.W) :
    B3 m c (Proc.devRef .tc (Pipeline.arrRef spec1 w)) = (Aggregate.dat (E2 m) c).arrAt w cfg1.N := by
  unfold B3; exact Pipeline.withArrays_arr spec1 launch1.win.arr_inj c _ _ w
theorem B3_other (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb

/-- The two facts that put a call's arrays back among the core's buffers at its exit. -/
theorem exit0_arr (c : Dev nD) (w : Fin cfg0.W) : (Project.dat (E0 m) c).arrAt w cfg0.N = E1 m c (Pipeline.arrRef spec0 w) :=
  (B1_arr m c w).symm
theorem exit0_rest (c : Dev nD) : ∀ b, b ∉ Finset.univ.image (Pipeline.arrRef spec0) → E1 m c b = E0 m c b :=
  fun b hb => B1_other m c b fun w e => hb (Finset.mem_image.mpr ⟨w, Finset.mem_univ _, e⟩)
theorem exit1_arr (c : Dev nD) (w : Fin cfg1.W) : (Aggregate.dat (E2 m) c).arrAt w cfg1.N = E3 m c (Pipeline.arrRef spec1 w) :=
  (B3_arr m c w).symm
theorem exit1_rest (c : Dev nD) : ∀ b, b ∉ Finset.univ.image (Pipeline.arrRef spec1) → E3 m c b = E2 m c b :=
  fun b hb => B3_other m c b fun w e => hb (Finset.mem_image.mpr ⟨w, Finset.mem_univ _, e⟩)

/-! ## What the items leave where -/

/-- X reaches the end as launched: the projection call only reads it, nothing else touches it. -/
theorem B3_arg0 (c : Dev nD) : B3 m c (Proc.devRef .tc main_arg0) = m ((c : Thread nD τ).loc main_arg0) :=
  calc B3 m c (Proc.devRef .tc main_arg0)
    _ = B2 m c (Proc.devRef .tc main_arg0) := B3_other m c main_arg0 (by decide)
    _ = B1 m c (Proc.devRef .tc main_arg0) := B2_other m c main_arg0 (by decide)
    _ = B0 m c (Proc.devRef .tc main_arg0) :=
        (B1_arr m c 0).trans (((Project.dat (E0 m) c).arrAt_in 0 rfl _).trans (Project.dat_A (E0 m) c 0))
    _ = m ((c : Thread nD τ).loc main_arg0) := rfl
/-- W likewise. -/
theorem B3_arg2 (c : Dev nD) : B3 m c (Proc.devRef .tc main_arg2) = m ((c : Thread nD τ).loc main_arg2) :=
  calc B3 m c (Proc.devRef .tc main_arg2)
    _ = B2 m c (Proc.devRef .tc main_arg2) := B3_other m c main_arg2 (by decide)
    _ = B1 m c (Proc.devRef .tc main_arg2) := B2_other m c main_arg2 (by decide)
    _ = B0 m c (Proc.devRef .tc main_arg2) :=
        (B1_arr m c 1).trans (((Project.dat (E0 m) c).arrAt_in 1 rfl _).trans (Project.dat_A (E0 m) c 1))
    _ = m ((c : Thread nD τ).loc main_arg2) := rfl
/-- The bias vector is read by the host line only. -/
theorem B3_arg3 (c : Dev nD) : B3 m c (Proc.devRef .tc main_arg3) = m ((c : Thread nD τ).loc main_arg3) :=
  calc B3 m c (Proc.devRef .tc main_arg3)
    _ = B2 m c (Proc.devRef .tc main_arg3) := B3_other m c main_arg3 (by decide)
    _ = B1 m c (Proc.devRef .tc main_arg3) := B2_other m c main_arg3 (by decide)
    _ = B0 m c (Proc.devRef .tc main_arg3) := B1_other m c main_arg3 (by decide)
    _ = m ((c : Thread nD τ).loc main_arg3) := rfl
/-- A enters the aggregation call as launched, -/
theorem E2_arg1 (c : Dev nD) : E2 m c main_arg1 = m ((c : Thread nD τ).loc main_arg1) :=
  calc B2 m c (Proc.devRef .tc main_arg1)
    _ = B1 m c (Proc.devRef .tc main_arg1) := B2_other m c main_arg1 (by decide)
    _ = B0 m c (Proc.devRef .tc main_arg1) := B1_other m c main_arg1 (by decide)
    _ = m ((c : Thread nD τ).loc main_arg1) := rfl
/-- and leaves it so: the call only reads it. -/
theorem B3_arg1 (c : Dev nD) : B3 m c (Proc.devRef .tc main_arg1) = m ((c : Thread nD τ).loc main_arg1) :=
  (B3_arr m c 0).trans (((Aggregate.dat (E2 m) c).arrAt_in 0 rfl _).trans ((Aggregate.dat_A (E2 m) c 0).trans (E2_arg1 m c)))
/-- The support matrix enters the aggregation call as the projection call left it. -/
theorem E2_v0 (c : Dev nD) : E2 m c main_v0 = (Project.dat (E0 m) c).arrAt 2 cfg0.N :=
  (B2_other m c main_v0 (by decide)).trans (B1_arr m c 2)
/-- The bias row enters it as the host line made it: the bias vector re-laid as one row. -/
theorem E2_v1 (c : Dev nD) :
    E2 m c main_v1 = shapeCast S1x512 (m ((c : Thread nD τ).loc main_arg3)) shapeCasts_S512_S1x512 := by
  show StableHlo.after hostOps1 (B1 m c) (Proc.devRef .tc main_v1) = _
  after_results
  exact congrArg (fun x => shapeCast S1x512 x shapeCasts_S512_S1x512) ((B1_other m c main_arg3 (by decide)).trans rfl)
/-- The program's result is the aggregation call's result array. -/
theorem B3_v2 (c : Dev nD) : B3 m c (Proc.devRef .tc main_v2) = (Aggregate.dat (E2 m) c).arrAt 3 cfg1.N :=
  B3_arr m c 3

/-! ## The two calls' proof data together, and what rides beside the buffers -/

/-- No call has a prefetched table. -/
abbrev noTables : (p : Fin 2) → (pcfgs (F := F) p).Adm := fun p => (cfgs p).toPCfg_adm
/-- Both calls' proof data, each at the contents its call is entered from. -/
def both : (p : Fin 2) → (c : Dev nD) → Dat τ (Elt F) Unit ℕ (UR sig nD τ) ℕ (Pipeline.pin (pcfgs (F := F)) noTables p) c
  | ⟨0, _⟩ => fun c => Project.dat (E0 m) c
  | ⟨1, _⟩ => fun c => Aggregate.dat (E2 m) c
abbrev noVariants : Variants := Variants.none
/-- No core owes another anything. -/
abbrev noPairs : GSem nD τ sig → Finset Unit := fun _ => ∅
abbrev noLevels : GSem nD τ sig → Unit → ℕ := fun _ _ => 0
/-- Beside the buffers: the generator register at some state, and the core owing nothing. -/
abbrev beside (c : Dev nD) : sProp 𝕄 := iprop((∃ r, prngReg c r) ∗ ∃ W, owes (c : Thread nD τ) (0 : CellTallies nD τ sig Unit) W)
/-- The state the run ends in, without the `owes`. -/
abbrev endState (c : Dev nD) : sProp 𝕄 := iprop(StableHlo.held (c : Thread nD τ) (Pipeline.ucRefs τ sig) (B3 m c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The host line as a segment of the run, entered from B1 and left at B2. -/
abbrev biasLine : Pipeline.HostSeg (Name := ℕ) (U := UR sig nD τ) (pcfgs (F := F)) defs₀ noVariants noPairs noLevels :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (B1 m) beside

/-! ## The two calls as segments of the run -/

set_option backward.isDefEq.respectTransparency.types false in
/-- The projection call: entered from every unscoped buffer at B0, left at B1. Its three arrays are taken out of the
    buffers at entry and put back at their final contents at exit; the generator register goes into the call's invariant
    and comes back; nothing is owed; the body has no semaphore of its own. -/
def projCall : Pipeline.RegionSeg (pcfgs (F := F)) noTables (both m) () defs₀ noVariants noPairs noLevels 0 where
  win := launch0.win.to₀
  block_pos := launch0.block_pos
  stage_whole := launch0.stage_whole
  K := PEmpty
  osem k := k.elim
  ho := Pipeline.OwnSemFacts.none _
  hbody c := (Project.body_obligation (E0 m) c).loose
  hwaits := Pipeline.hwaits_of_owed_zero _ _ _ _ noPairs noLevels 0 fun _ _ => rfl
  pre c := iprop(StableHlo.held (c : Thread nD τ) (Pipeline.ucRefs τ sig) (B0 m c) ∗ beside c)
  post c := iprop(StableHlo.held (c : Thread nD τ) (Pipeline.ucRefs τ sig) (B1 m c) ∗ beside c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) noTables (both m) launch0.win launch0.arr_whole c
      ((both m 0 c).share_full fun _ => rfl) (E0 m c) fun _ => rfl
    rw [Pipeline.unscopedBufs_held] at hsplit
    iintro ⟨⟨Hbufs, Hg, Ho⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Ho]
    · unfold Pipeline.Dat.owesAt Pipeline.owesWithin
      icases Ho with ⟨%W, Ho⟩; iexists W; isplitr; · ipureintro; exact fun _ _ => Or.inl trivial
      iexact Ho
    isplitl [Hg]; · iexact Hg
    iexact Hrest
  hin c := by
    rw [show (both m 0 c).Φ 0 = Pipeline.ΦA spec0 c from rfl]; unfold Pipeline.ΦA
    iintro ⟨Hg, -, Hr⟩
    isplitl [Hr]; · iexact Hr
    iexact Hg
  hout c := by
    rw [Pipeline.ownSems0_none, show (both m 0 c).Φ (Fin.last _) = Pipeline.ΦA spec0 c from rfl]; unfold Pipeline.ΦA
    iintro ⟨Hr, Hg⟩
    isplitl [Hg]; · iexact Hg
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (both m) ((both m 0 c).share_full fun _ => rfl)
      (E0 m c) (E1 m c) ((both m 0 c).arrAt · cfg0.N) (exit0_arr m c) (exit0_rest m c)
    rw [Pipeline.unscopedBufs_held] at hjoin
    iintro ⟨Harr, Ho, Hg, Hrest⟩
    imodintro
    isplitl [Harr Hrest]
    · iapply hjoin; isplitl [Harr] <;> iassumption
    isplitl [Hg]; · iexact Hg
    unfold Pipeline.Dat.owesAt Pipeline.owesWithin
    icases Ho with ⟨%W, -, Ho⟩; iexists W; iexact Ho

set_option backward.isDefEq.respectTransparency.types false in
/-- The aggregation call: entered from every unscoped buffer at B2, left at B3 with the core owing nothing. As for the
    projection call, except that its invariant keeps the accumulator: the pipeline's own invariant enters it before the
    first point (`phi_in`) and is given back after the last (`phi_out`). -/
def aggCall : Pipeline.RegionSeg (pcfgs (F := F)) noTables (both m) () defs₀ noVariants noPairs noLevels 1 where
  win := launch1.win.to₀
  block_pos := launch1.block_pos
  stage_whole := launch1.stage_whole
  K := PEmpty
  osem k := k.elim
  ho := Pipeline.OwnSemFacts.none _
  hbody c := (Aggregate.body_obligation (E2 m) c).loose
  hwaits := Pipeline.hwaits_of_owed_zero _ _ _ _ noPairs noLevels 1 fun _ _ => rfl
  pre c := iprop(StableHlo.held (c : Thread nD τ) (Pipeline.ucRefs τ sig) (B2 m c) ∗ beside c)
  post c := iprop(endState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) noTables (both m) launch1.win launch1.arr_whole c
      ((both m 1 c).share_full fun _ => rfl) (E2 m c) fun _ => rfl
    rw [Pipeline.unscopedBufs_held] at hsplit
    iintro ⟨⟨Hbufs, Hg, Ho⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Ho]
    · unfold Pipeline.Dat.owesAt Pipeline.owesWithin
      icases Ho with ⟨%W, Ho⟩; iexists W; isplitr; · ipureintro; exact fun _ _ => Or.inl trivial
      iexact Ho
    isplitl [Hg]; · iexact Hg
    iexact Hrest
  hin c := by
    refine BIBase.Entails.trans ?_ (show Pipeline.ΦA spec1 c ⊢ (both m 1 c).Φ 0 from Aggregate.phi_in (E2 m) c)
    unfold Pipeline.ΦA
    iintro ⟨Hg, -, Hr⟩
    isplitl [Hr]; · iexact Hr
    iexact Hg
  hout c := by
    rw [Pipeline.ownSems0_none]
    refine BIBase.Entails.trans (show (both m 1 c).Φ (Fin.last _) ⊢ Pipeline.ΦA spec1 c from Aggregate.phi_out (E2 m) c) ?_
    unfold Pipeline.ΦA
    iintro ⟨Hr, Hg⟩
    isplitl [Hg]; · iexact Hg
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (both m) ((both m 1 c).share_full fun _ => rfl)
      (E2 m c) (E3 m c) ((both m 1 c).arrAt · cfg1.N) (exit1_arr m c) (exit1_rest m c)
    rw [Pipeline.unscopedBufs_held] at hjoin
    iintro ⟨Harr, Ho, Hg, Hrest⟩
    imodintro
    isplitl [Harr Hrest Hg]
    · isplitl [Harr Hrest]
      · iapply hjoin; isplitl [Harr] <;> iassumption
      iexact Hg
    unfold Pipeline.Dat.owesAt Pipeline.owesWithin
    icases Ho with ⟨%W, -, Ho⟩; iexists W; iexact Ho

/-! ## The run -/

/-- The program's three items in order. -/
abbrev items : List (Pipeline.Seg (pcfgs (F := F)) noTables (both m) () defs₀ noVariants noPairs noLevels) :=
  [ .region (projCall m), .host (biasLine m), .region (aggCall m) ]

theorem main_items (c : Dev nD) : main (F := F) c = Pipeline.Seg.run (items m) := (main_chain c).trans (by chain_rfl)

set_option backward.isDefEq.respectTransparency.types false in
/-- From any memory with every counter at zero, every weakly fair execution of the program terminates, nothing faulting,
    and ends with every unscoped buffer of every core at B3. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) noTables (both m) () cellOf_inj emb₁ defs₀ noVariants noPairs noLevels m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ beside c)) (Tₙ := endState m)
    (hch := ⟨fun _ => .rfl, fun _ => .rfl, fun _ => .rfl, fun _ => .rfl⟩)
    (hinit := by
      refine Pipeline.initEach noPairs noLevels fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, Ho, -, Hg, -⟩, -⟩
      imodintro
      isplitl [Hh]; · iexact Hh
      isplitl [Hg]; · iexists _; iexact Hg
      iexists ∅; iexact Ho)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- The frame: the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (B3_arg0 m c),
     (h c _ (mem_uc main_arg1 (by decide))).trans (B3_arg1 m c),
     (h c _ (mem_uc main_arg2 (by decide))).trans (B3_arg2 m c),
     (h c _ (mem_uc main_arg3 (by decide))).trans (B3_arg3 m c)⟩) (run_all m ρ)

/-- The run with its result named: the program's result is the aggregation call's result array, and the four
    arguments end as launched. -/
theorem run_result : θ_run defs (onTc (τ := τ) (main (F := F))) ⟨m, fun _ => 0, ρ⟩ (fun r => ∀ c : Dev nD,
      r.2.mem ((c.tc : Thread nD τ).loc main_v2) = (Aggregate.dat (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (B3_v2 m c),
     (h c _ (mem_uc main_arg0 (by decide))).trans (B3_arg0 m c),
     (h c _ (mem_uc main_arg1 (by decide))).trans (B3_arg1 m c),
     (h c _ (mem_uc main_arg2 (by decide))).trans (B3_arg2 m c),
     (h c _ (mem_uc main_arg3 (by decide))).trans (B3_arg3 m c)⟩) (run_all m ρ)

end Cert.Kernel.Whole

end
-- ==== Proof.KernelIdeal.Project.lean ====
/-
  The projection call: sixteen grid points, point t taking rows 512·t … 512·t + 511 of the input X and the whole
  weight matrix W, and leaving in the output block the matrix product of the two (the accumulator of the product
  starting at zero). This module says what one run of the body does to its three buffers, what the three windows'
  staging buffers therefore hold after the body at every point, and that the body meets the pipeline's obligation
  at every point. Everything is stated at a parameter V: the contents of the core's buffers when the call is entered.
-/
import proofs.«160564_j996432413322_1_alg».proof.Proof.Gen.KernelIdeal.Launch
import proofs.«160564_j996432413322_1_alg».proof.Proof.Gen.KernelIdeal.Skeleton
import proofs.«160564_j996432413322_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Project

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the window's array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem zero_off : (![0, 0] : Fin 2 → Nat) = fun _ => 0 := funext fun a => by fin_cases a <;> rfl

/-- One run of the body: with the row block x and the weights w in the two input buffers, the body ends with both
    unchanged and the output buffer at the product of x and w. -/
theorem body_run (c : Dev nD) (E : Set ℕ) (i : grid0.Coords)
    (a1 : Memref sig .tc .vmem S512x512 .f32) (h1 : a1.IsWhole) (a2 : Memref sig .tc .vmem S512x512 .f32) (h2 : a2.IsWhole)
    (a3 : Memref sig .tc .vmem S512x512 .f32) (h3 : a3.IsWhole) (x w : Vec F S512x512 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (k0_pay1 x w)) -∗ K ⟨⟩))
      ⊢ wp frame (wpE (defs₀ (F := F)) Variants.none c none) E (cc0__proj_kernel i a1 h1 a2 h2 a3 h3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  -- the one store covers the whole buffer, and the two loads read the whole input buffers
  rw [View.read_writes_eq_canon _ _ _ (fun y => ⟨_, List.mem_singleton_self _, View.mem_set_unit_zero zero_off inb_S512x512_S512x512_0_0 y⟩),
    View.canon_unit_zero zero_off]
  simp only [View.readAt_eq_ld, View.ld_unit_zero (S := S512x512) zero_off]

/-- The call's proof data on core c. The arrays are as the call finds them. After the body at point t the two input
    buffers still hold their blocks (the row block of X, the weights) and the output buffer holds their product. The
    body uses no scratch and no generator, owes nothing, and the arrays are held whole. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => k0_pay1 (blk V c 0 t) (blk V c 1 t)
  Φ _ := Pipeline.ΦA spec0 c
  q _ := fullShare
  owed _ := 0

theorem dat_A (c : Dev nD) (w : Fin cfg0.W) : (dat V c).A w = V c (Pipeline.arrRef spec0 w) := by dsimp only [dat]
theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_o (c : Dev nD) (t : Fin cfg0.N) : (dat V c).after 2 t = k0_pay1 (blk V c 0 t) (blk V c 1 t) := by dsimp only [dat]

/-- The row-block buffer holds the row block of X at every point: it is fetched afresh at every point. -/
theorem before_x (c : Dev nD) (t : Fin cfg0.N) (d) : (dat V c).before 0 t d = blk V c 0 t :=
  ((dat V c).before_in_eq_fetched 0 rfl (fun _ => rfl) (fun _ _ _ => rfl)
    (fun t => by rw [after_x]; unfold Dat.blockOf blk; rw [dat_A]; try rfl) t d).trans
    (by unfold Dat.fetched Dat.blockOf blk; rw [dat_A]; try rfl)

/-- The weight buffer holds W at every point: fetched once, at the first point, and the body leaves it in place. -/
theorem before_w (c : Dev nD) (t : Fin cfg0.N) (d) : (dat V c).before 1 t d = blk V c 1 t :=
  ((dat V c).before_in_eq_fetched 1 rfl (fun _ => rfl) (fun _ _ _ => rfl)
    (fun t => by rw [after_w]; unfold Dat.blockOf blk; rw [dat_A]; try rfl) t d).trans
    (by unfold Dat.fetched Dat.blockOf blk; rw [dat_A]; try rfl)

/-- What the body is handed at point t, the three windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at a point: the input buffers hold their blocks, so one run of the body applies; nothing else is touched. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).Φ t.succ = (dat V c).Φ t.castSucc from rfl,
    show (dat V c).owesAt () t.succ = (dat V c).owesAt () t.castSucc from rfl,
    after_x, after_w, after_o]
  iintro ⟨HΦ, Ho, ⟨%d0, H0⟩, ⟨%d1, H1⟩, ⟨%d2, H2⟩⟩
  iapply (body_run c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation (c : Dev nD) : BodyObligation (dat (F := F) V c) (defs₀ (F := F)) Variants.none () Set.univ := fun t => by
  rw [bigSep_W0, bigSep_W0]
  exact body_at V c t

end Cert.KernelIdeal.Project

end
-- ==== Proof.KernelIdeal.Aggregate.lean ====
/-
  The aggregation call: a 16 × 4 grid, point t = 4·i + k taking the 512 × 2048 tile (i, k) of the adjacency matrix A,
  the 2048 × 512 row tile k of the support matrix S and the bias row, with a 512 × 512 accumulator kept in scratch
  memory from point to point. At k = 0 the accumulator is first set to zero; at every point the product of the two
  tiles is added to it; at k = 3 the accumulator plus the bias row (the same row under every row of the block) is
  stored into the output block i, which is written back after that point only.

  This module says what one run of the body does in each of the three situations a point can be in (first tile of a
  row block, a middle tile, the last tile), what the accumulator therefore holds after every point (`acc`, by
  recursion on the point), the call's invariant (the accumulator's contents between two points), its proof data, and
  that the body meets the pipeline's obligation at every point. Everything is stated at a parameter V: the contents
  of the core's buffers when the call is entered.
-/
import proofs.«160564_j996432413322_1_alg».proof.Proof.Gen.KernelIdeal.Launch
import proofs.«160564_j996432413322_1_alg».proof.Proof.Gen.KernelIdeal.Skeleton
import proofs.«160564_j996432413322_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Aggregate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the window's array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem zero_off : (![0, 0] : Fin 2 → Nat) = fun _ => 0 := funext fun a => by fin_cases a <;> rfl

/-! ## Where a point stands in its row block -/

/-- The point is the first tile of its row block (k = 0): the body's first branch, as the body computes it. -/
abbrev isFirst (i : grid1.Coords) : Prop :=
  (Scalar.cmpi .ne (Scalar.extui (Scalar.cmpi .eq (BitVec.ofNat 32 (i 1).val) 0#32)) 0#32) = 1#1
/-- The point is the last tile of its row block (k = 3): the body's second branch. -/
abbrev isLast (i : grid1.Coords) : Prop := k1_cond2 i = 1#1

theorem isFirst_iff : ∀ t : Fin cfg1.N, isFirst (grid1.coords t) ↔ t.val % 4 = 0 :=
  (by decide +kernel : ∀ t : Fin grid1.N, isFirst (grid1.coords t) ↔ t.val % 4 = 0)
theorem isLast_iff : ∀ t : Fin cfg1.N, isLast (grid1.coords t) ↔ t.val % 4 = 3 :=
  (by decide +kernel : ∀ t : Fin grid1.N, isLast (grid1.coords t) ↔ t.val % 4 = 3)

/-- The inputs' windows are never idle; the output's is idle exactly off the last tile, -/
theorem live_in : ∀ (w : Fin cfg1.W), w.val < 3 → ∀ i, cfg1.idle w i = false := by
  intro w hw i
  match w, hw with
  | ⟨0, _⟩, _ => rfl
  | ⟨1, _⟩, _ => rfl
  | ⟨2, _⟩, _ => rfl
theorem idle_out : ∀ t : Fin cfg1.N, ¬isLast (grid1.coords t) → cfg1.idle 3 (grid1.coords t) = true := by decide +kernel
theorem live_out : ∀ t : Fin cfg1.N, isLast (grid1.coords t) → cfg1.idle 3 (grid1.coords t) = false := by decide +kernel
/-- and is not written back there. -/
theorem noflush_out : ∀ t : Fin cfg1.N, ¬isLast (grid1.coords t) → (cfg1.win 3).flush t = false := by decide +kernel

/-! ## One run of the body, in each situation -/

/-- The scratch accumulator as the body is handed it. -/
abbrev scr : Memref sig .tc .vmem S512x512 .f32 := Memref.whole cc1_scratch0

/-- First tile of a row block: whatever the accumulator held, it ends at zero plus the product of the two tiles. The
    bias and output buffers are not touched. -/
theorem run_first (c : Dev nD) (E : Set ℕ) (i : grid1.Coords)
    (a2 : Memref sig .tc .vmem S512x2048 .f32) (h2 : a2.IsWhole) (a3 : Memref sig .tc .vmem S2048x512 .f32) (h3 : a3.IsWhole)
    (a4 : Memref sig .tc .vmem S1x512 .f32) (h4 : a4.IsWhole) (a5 : Memref sig .tc .vmem S512x512 .f32) (h5 : a5.IsWhole)
    (a6 : Memref sig .tc .vmem S512x512 .f32) (h6 : a6.IsWhole) (hf : isFirst i) (hl : ¬isLast i)
    (x : Vec F S512x2048 .f32) (s : Vec F S2048x512 .f32) (K : PUnit → sProp 𝕄) :
    iprop(owns (c : Thread nD τ) a2 fullShare x ∗ owns (c : Thread nD τ) a3 fullShare s ∗ (∃ d, owns (c : Thread nD τ) a6 fullShare d)
        ∗ (iprop(owns (c : Thread nD τ) a2 fullShare x ∗ owns (c : Thread nD τ) a3 fullShare s
            ∗ owns (c : Thread nD τ) a6 fullShare (k1_pay2 x s k1_pay1)) -∗ K ⟨⟩))
      ⊢ wp frame (wpE (defs₀ (F := F)) Variants.none c none) E (cc1__gc_kernel i a2 h2 a3 h3 a4 h4 a5 h5 a6 h6) K := by
  simp only [cc1__gc_kernel_eq_skeleton]; unfold cc1__gc_kernel_skel
  unfold owns
  iintro ⟨⟨%f2, %hf2, H2⟩, ⟨%f3, %hf3, H3⟩, ⟨%d6, %f6, -, H6⟩, Hk⟩
  subst hf2; subst hf3
  sl_exec (disch := first | exact hf | exact hl)
  sl_step
  iapply Hk
  isplitl [H2]
  · iexists f2; isplitr; · ipureintro; rfl
    iexact H2
  isplitl [H3]
  · iexists f3; isplitr; · ipureintro; rfl
    iexact H3
  iexists _; isplitr
  swap; · iexact H6
  ipureintro
  sl_unfold_words
  rw [View.read_writes_eq_canon _ _ _ (fun y => ⟨_, List.mem_cons_self, View.mem_set_unit_zero zero_off inb_S512x512_S512x512_0_0 y⟩),
    View.canon_cons_unit_zero (S := S512x512) zero_off]
  simp only [View.readAt_eq_ld, View.ld_unit_zero (S := S512x2048) zero_off, View.ld_unit_zero (S := S2048x512) zero_off,
    View.readCov_unit_zero (S := S512x512) _ zero_off]

/-- A middle tile: the accumulator, holding a, ends at a plus the product of the two tiles. -/
theorem run_mid (c : Dev nD) (E : Set ℕ) (i : grid1.Coords)
    (a2 : Memref sig .tc .vmem S512x2048 .f32) (h2 : a2.IsWhole) (a3 : Memref sig .tc .vmem S2048x512 .f32) (h3 : a3.IsWhole)
    (a4 : Memref sig .tc .vmem S1x512 .f32) (h4 : a4.IsWhole) (a5 : Memref sig .tc .vmem S512x512 .f32) (h5 : a5.IsWhole)
    (a6 : Memref sig .tc .vmem S512x512 .f32) (h6 : a6.IsWhole) (hf : ¬isFirst i) (hl : ¬isLast i)
    (x : Vec F S512x2048 .f32) (s : Vec F S2048x512 .f32) (a : Vec F S512x512 .f32) (K : PUnit → sProp 𝕄) :
    iprop(owns (c : Thread nD τ) a2 fullShare x ∗ owns (c : Thread nD τ) a3 fullShare s ∗ owns (c : Thread nD τ) a6 fullShare a
        ∗ (iprop(owns (c : Thread nD τ) a2 fullShare x ∗ owns (c : Thread nD τ) a3 fullShare s
            ∗ owns (c : Thread nD τ) a6 fullShare (k1_pay2 x s a)) -∗ K ⟨⟩))
      ⊢ wp frame (wpE (defs₀ (F := F)) Variants.none c none) E (cc1__gc_kernel i a2 h2 a3 h3 a4 h4 a5 h5 a6 h6) K := by
  simp only [cc1__gc_kernel_eq_skeleton]; unfold cc1__gc_kernel_skel
  unfold owns
  iintro ⟨⟨%f2, %hf2, H2⟩, ⟨%f3, %hf3, H3⟩, ⟨%f6, %hf6, H6⟩, Hk⟩
  subst hf2; subst hf3; subst hf6
  sl_exec (disch := first | exact hf | exact hl)
  sl_step
  iapply Hk
  isplitl [H2]
  · iexists f2; isplitr; · ipureintro; rfl
    iexact H2
  isplitl [H3]
  · iexists f3; isplitr; · ipureintro; rfl
    iexact H3
  iexists _; isplitr
  swap; · iexact H6
  ipureintro
  sl_unfold_words
  rw [View.read_writes_eq_canon _ _ _ (fun y => ⟨_, List.mem_cons_self, View.mem_set_unit_zero zero_off inb_S512x512_S512x512_0_0 y⟩),
    View.canon_cons_unit_zero (S := S512x512) zero_off]
  simp only [View.readAt_eq_ld, View.ld_unit_zero (S := S512x2048) zero_off, View.ld_unit_zero (S := S2048x512) zero_off,
    View.ld_unit_zero (S := S512x512) zero_off]

set_option maxHeartbeats 2000000 in
/-- The last tile of a row block: the accumulator, holding a, ends at a plus the product of the two tiles, and the
    output buffer at that sum plus the bias row b under every row. -/
theorem run_last (c : Dev nD) (E : Set ℕ) (i : grid1.Coords)
    (a2 : Memref sig .tc .vmem S512x2048 .f32) (h2 : a2.IsWhole) (a3 : Memref sig .tc .vmem S2048x512 .f32) (h3 : a3.IsWhole)
    (a4 : Memref sig .tc .vmem S1x512 .f32) (h4 : a4.IsWhole) (a5 : Memref sig .tc .vmem S512x512 .f32) (h5 : a5.IsWhole)
    (a6 : Memref sig .tc .vmem S512x512 .f32) (h6 : a6.IsWhole) (hf : ¬isFirst i) (hl : isLast i)
    (x : Vec F S512x2048 .f32) (s : Vec F S2048x512 .f32) (b : Vec F S1x512 .f32) (a : Vec F S512x512 .f32) (K : PUnit → sProp 𝕄) :
    iprop(owns (c : Thread nD τ) a2 fullShare x ∗ owns (c : Thread nD τ) a3 fullShare s ∗ owns (c : Thread nD τ) a4 fullShare b
        ∗ (∃ d, owns (c : Thread nD τ) a5 fullShare d) ∗ owns (c : Thread nD τ) a6 fullShare a
        ∗ (iprop(owns (c : Thread nD τ) a2 fullShare x ∗ owns (c : Thread nD τ) a3 fullShare s ∗ owns (c : Thread nD τ) a4 fullShare b
            ∗ owns (c : Thread nD τ) a5 fullShare (k1_pay3 (k1_pay2 x s a) b)
            ∗ owns (c : Thread nD τ) a6 fullShare (k1_pay2 x s a)) -∗ K ⟨⟩))
      ⊢ wp frame (wpE (defs₀ (F := F)) Variants.none c none) E (cc1__gc_kernel i a2 h2 a3 h3 a4 h4 a5 h5 a6 h6) K := by
  simp only [cc1__gc_kernel_eq_skeleton]; unfold cc1__gc_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2; subst hf3; subst hf4; subst hf6
  sl_exec (disch := first | exact hf | exact hl)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (fun y => ⟨_, List.mem_cons_self, View.mem_set_unit_zero zero_off inb_S512x512_S512x512_0_0 y⟩),
      View.canon_cons_unit_zero (S := S512x512) zero_off]
    simp only [View.readAt_eq_ld, View.ld_unit_zero (S := S512x2048) zero_off, View.ld_unit_zero (S := S2048x512) zero_off,
      View.ld_unit_zero (S := S512x512) zero_off, View.ld_unit_zero (S := S1x512) zero_off,
      View.readCov_unit_zero (S := S512x512) _ zero_off]
  iexists _; isplitr
  swap; · iexact H6
  ipureintro
  sl_unfold_words
  rw [View.read_writes_eq_canon _ _ _ (fun y => ⟨_, List.mem_cons_self, View.mem_set_unit_zero zero_off inb_S512x512_S512x512_0_0 y⟩),
    View.canon_cons_unit_zero (S := S512x512) zero_off]
  simp only [View.readAt_eq_ld, View.ld_unit_zero (S := S512x2048) zero_off, View.ld_unit_zero (S := S2048x512) zero_off,
    View.ld_unit_zero (S := S512x512) zero_off]

end Cert.KernelIdeal.Aggregate

end
-- ==== Proof.KernelIdeal.AggregateBody.lean ====
/-
  The aggregation call's accumulator from point to point, its invariant, its proof data, and the body's obligation.

  After point t = 4·i + k the scratch accumulator holds the partial sum over the tiles 0 … k of row block i:
      acc t = (zero if k = 0, else acc (t − 1)) + (tile (i, k) of A) · (row tile k of S).
  Between two points the invariant holds the accumulator at exactly that; before the first point it holds anything.
  At a last tile (k = 3) the output buffer is left at acc t plus the bias row; elsewhere the body does not touch it.
-/
import proofs.«160564_j996432413322_1_alg».proof.Proof.Gen.KernelIdeal.Launch
import proofs.«160564_j996432413322_1_alg».proof.Proof.Gen.KernelIdeal.Skeleton
import proofs.«160564_j996432413322_1_alg».proof.Proof.Gen.KernelIdeal.Points
import proofs.«160564_j996432413322_1_alg».proof.Proof.KernelIdeal.Aggregate
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Aggregate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator after each point -/

/-- What the scratch accumulator holds after the body at position n of the grid (n = 4·i + k). -/
def acc (c : Dev nD) : (n : ℕ) → n < cfg1.N → Vec F S512x512 .f32
  | 0, h => k1_pay2 (blk V c 0 ⟨0, h⟩) (blk V c 1 ⟨0, h⟩) k1_pay1
  | n + 1, h => k1_pay2 (blk V c 0 ⟨n + 1, h⟩) (blk V c 1 ⟨n + 1, h⟩)
      (if (n + 1) % 4 = 0 then k1_pay1 else acc c n (Nat.lt_of_succ_lt h))

/-- At the first tile of a row block the sum starts from zero. -/
theorem acc_first (c : Dev nD) (t : Fin cfg1.N) (h : t.val % 4 = 0) :
    acc V c t.val t.isLt = k1_pay2 (blk V c 0 t) (blk V c 1 t) k1_pay1 := by
  obtain ⟨n, hn⟩ := t
  cases n with
  | zero => rfl
  | succ n => show k1_pay2 _ _ (if (n + 1) % 4 = 0 then _ else _) = _; rw [if_pos h]

/-- At any other tile it continues from the point before. -/
theorem acc_next (c : Dev nD) (t : Fin cfg1.N) (h : ¬t.val % 4 = 0) :
    acc V c t.val t.isLt = k1_pay2 (blk V c 0 t) (blk V c 1 t)
      (acc V c (t.val - 1) (Nat.lt_of_le_of_lt (Nat.sub_le _ _) t.isLt)) := by
  obtain ⟨n, hn⟩ := t
  cases n with
  | zero => exact absurd (Nat.zero_mod _) h
  | succ n => show k1_pay2 _ _ (if (n + 1) % 4 = 0 then _ else _) = _; rw [if_neg h]; rfl

/-! ## The invariant -/

/-- The call's invariant with the accumulator at contents X: the core's other scoped buffers (the projection call's
    staging buffers) at anything, the accumulator at X, the generator register at some state. -/
def phiWith (c : Dev nD) (X : Vec F S512x512 .f32) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ owns (c : Thread nD τ) scr fullShare X) ∗ ∃ r, prngReg c r)

/-- The same with the accumulator at anything: this is what the pipeline hands the call and takes back. -/
def phiAny (c : Dev nD) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ d, owns (c : Thread nD τ) scr fullShare d)) ∗ ∃ r, prngReg c r)

theorem phiA_eq (c : Dev nD) : (Pipeline.ΦA spec1 c : sProp 𝕄) = phiAny c := by
  unfold Pipeline.ΦA phiAny; rw [scopedRest1_eq]; simp only [scr, owns_whole]; try rfl

theorem phiWith_any (c : Dev nD) (X : Vec F S512x512 .f32) : phiWith c X ⊢ (phiAny c : sProp 𝕄) := by
  unfold phiWith phiAny
  iintro ⟨⟨H1, H2, H3, H4, H5, HS⟩, Hg⟩
  isplitr [Hg]
  · isplitl [H1]; · iexact H1
    isplitl [H2]; · iexact H2
    isplitl [H3]; · iexact H3
    isplitl [H4]; · iexact H4
    isplitl [H5]; · iexact H5
    iexists _; iexact HS
  iexact Hg

/-- Before position n: anything before the first point, then the accumulator at what the point before left. -/
def phiAt (c : Dev nD) : (n : ℕ) → n ≤ cfg1.N → sProp 𝕄
  | 0, _ => Pipeline.ΦA spec1 c
  | n + 1, h => phiWith c (acc V c n h)

theorem phiAt_pos (c : Dev nD) (n : ℕ) (h : n ≤ cfg1.N) (hz : n ≠ 0) :
    phiAt V c n h = phiWith c (acc V c (n - 1) (by omega)) := by
  cases n with
  | zero => exact absurd rfl hz
  | succ n => rfl

/-! ## The proof data -/

/-- The call's proof data on core c. The arrays are as the call finds them. After the body at point t the three input
    buffers still hold their blocks; the output buffer, at a last tile, holds the accumulator plus the bias row (at the
    other points the body leaves it alone and this entry is not consulted). The invariant is `phiAt`. Nothing is owed
    and the arrays are held whole. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => k1_pay3 (acc V c t.val t.isLt) (blk V c 2 t)
  Φ t := phiAt V c t.val (Nat.le_of_lt_succ t.isLt)
  q _ := fullShare
  owed _ := 0

theorem dat_A (c : Dev nD) (w : Fin cfg1.W) : (dat V c).A w = V c (Pipeline.arrRef spec1 w) := by dsimp only [dat]
theorem after_a (c : Dev nD) (t : Fin cfg1.N) : (dat V c).after 0 t = blk V c 0 t := by dsimp only [dat]
theorem after_s (c : Dev nD) (t : Fin cfg1.N) : (dat V c).after 1 t = blk V c 1 t := by dsimp only [dat]
theorem after_b (c : Dev nD) (t : Fin cfg1.N) : (dat V c).after 2 t = blk V c 2 t := by dsimp only [dat]
theorem after_o (c : Dev nD) (t : Fin cfg1.N) :
    (dat V c).after 3 t = k1_pay3 (acc V c t.val t.isLt) (blk V c 2 t) := by dsimp only [dat]

theorem phi_start (c : Dev nD) (t : Fin cfg1.N) : (dat V c).Φ t.castSucc = phiAt V c t.val (Nat.le_of_lt t.isLt) := by
  dsimp only [dat]; simp only [Fin.coe_castSucc]
theorem phi_end (c : Dev nD) (t : Fin cfg1.N) : (dat V c).Φ t.succ = phiWith c (acc V c t.val t.isLt) := rfl

/-- Each input buffer holds its block at every point, whether fetched there or kept from the point before. -/
theorem before_a (c : Dev nD) (t : Fin cfg1.N) (d) : (dat V c).before 0 t d = blk V c 0 t :=
  ((dat V c).before_in_eq_fetched 0 rfl (fun _ => rfl) (fun _ _ _ => rfl)
    (fun t => by rw [after_a]; unfold Dat.blockOf blk; rw [dat_A]; try rfl) t d).trans
    (by unfold Dat.fetched Dat.blockOf blk; rw [dat_A]; try rfl)
theorem before_s (c : Dev nD) (t : Fin cfg1.N) (d) : (dat V c).before 1 t d = blk V c 1 t :=
  ((dat V c).before_in_eq_fetched 1 rfl (fun _ => rfl) (fun _ _ _ => rfl)
    (fun t => by rw [after_s]; unfold Dat.blockOf blk; rw [dat_A]; try rfl) t d).trans
    (by unfold Dat.fetched Dat.blockOf blk; rw [dat_A]; try rfl)
theorem before_b (c : Dev nD) (t : Fin cfg1.N) (d) : (dat V c).before 2 t d = blk V c 2 t :=
  ((dat V c).before_in_eq_fetched 2 rfl (fun _ => rfl) (fun _ _ _ => rfl)
    (fun t => by rw [after_b]; unfold Dat.blockOf blk; rw [dat_A]; try rfl) t d).trans
    (by unfold Dat.fetched Dat.blockOf blk; rw [dat_A]; try rfl)

/-- What the pipeline hands the call is the invariant before the first point, -/
theorem phi_in (c : Dev nD) : Pipeline.ΦA spec1 c ⊢ (dat V c).Φ 0 := by
  rw [show (dat V c).Φ 0 = phiAt V c 0 (Nat.zero_le _) from rfl]
  exact Idealize.SL.BI.Entails.refl _

/-- and the invariant after the last point gives it back, the accumulator's contents forgotten. -/
theorem phi_out (c : Dev nD) : (dat V c).Φ (Fin.last cfg1.N) ⊢ Pipeline.ΦA spec1 c := by
  rw [show (dat V c).Φ (Fin.last cfg1.N) = phiAt V c (Fin.last cfg1.N).val (Nat.le_of_lt_succ (Fin.last cfg1.N).isLt) from rfl,
    phiAt_pos V c _ _ (by rw [Fin.val_last]; have : cfg1.N = 64 := N_1; omega), phiA_eq]
  exact phiWith_any c _

/-! ## The body obligation -/

/-- What the body is handed at point t, the four windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it hands back. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_a (c : Dev nD) (t : Fin cfg1.N) :
    (dat V c).leavesExact 0 t = owns (c : Thread nD τ) (st1_0 t) fullShare (blk V c 0 t) := by
  unfold Dat.leavesExact; rw [live_in 0 (by decide), after_a]
theorem leaves_s (c : Dev nD) (t : Fin cfg1.N) :
    (dat V c).leavesExact 1 t = owns (c : Thread nD τ) (st1_1 t) fullShare (blk V c 1 t) := by
  unfold Dat.leavesExact; rw [live_in 1 (by decide), after_s]
theorem leaves_b (c : Dev nD) (t : Fin cfg1.N) :
    (dat V c).leavesExact 2 t = owns (c : Thread nD τ) (st1_2 t) fullShare (blk V c 2 t) := by
  unfold Dat.leavesExact; rw [live_in 2 (by decide), after_b]

set_option maxHeartbeats 2000000 in
/-- The body at a point, by where the point stands in its row block. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_a, before_s, before_b]
  rw [show (dat V c).owesAt () t.succ = (dat V c).owesAt () t.castSucc from rfl, phi_end, leaves_a, leaves_s, leaves_b, phi_start]
  have hN : t.val < 64 := lt_of_lt_of_eq t.isLt (show cfg1.N = 64 from N_1)
  by_cases h0 : t.val % 4 = 0
  · -- first tile: the accumulator is handed at anything
    have hf : isFirst (grid1.coords t) := (isFirst_iff t).mpr h0
    have hl : ¬isLast (grid1.coords t) := fun h => by have := (isLast_iff t).mp h; omega
    rw [Dat.leavesExact_idle (dat V c) 3 t (idle_out t hl) (noflush_out t hl), acc_first V c t h0]
    have hany : phiAt V c t.val (Nat.le_of_lt t.isLt) ⊢ (phiAny c : sProp 𝕄) := by
      by_cases hz : t.val = 0
      · have : phiAt V c t.val (Nat.le_of_lt t.isLt) = Pipeline.ΦA spec1 c := by
          obtain ⟨n, hn⟩ := t; dsimp only at hz; subst hz; rfl
        rw [this, phiA_eq]
      · rw [phiAt_pos V c _ _ hz]; exact phiWith_any c _
    iintro ⟨HΦ, Ho, ⟨%d0, H0⟩, ⟨%d1, H1⟩, ⟨%d2, H2⟩, H3⟩
    ihave HΦ' := hany $$ HΦ
    unfold phiAny phiWith
    icases HΦ' with ⟨⟨R1, R2, R3, R4, R5, HS⟩, Hg⟩
    iapply (run_first c Set.univ _ _ _ _ _ _ _ _ _ _ _ hf hl (blk V c 0 t) (blk V c 1 t) _)
    isplitl [H0]; · iexact H0
    isplitl [H1]; · iexact H1
    isplitl [HS]; · iexact HS
    iintro ⟨H0, H1, HS⟩
    isplitl [R1 R2 R3 R4 R5 HS Hg]
    · isplitr [Hg]
      · isplitl [R1]; · iexact R1
        isplitl [R2]; · iexact R2
        isplitl [R3]; · iexact R3
        isplitl [R4]; · iexact R4
        isplitl [R5]; · iexact R5
        iexact HS
      iexact Hg
    isplitl [Ho]; · iexact Ho
    isplitl [H0]; · iexact H0
    isplitl [H1]; · iexact H1
    isplitl [H2]; · iexact H2
    iexact H3
  · have hf : ¬isFirst (grid1.coords t) := fun h => h0 ((isFirst_iff t).mp h)
    have hz : t.val ≠ 0 := fun h => h0 (by rw [h])
    rw [phiAt_pos V c _ _ hz, acc_next V c t h0]
    by_cases h3 : t.val % 4 = 3
    · -- last tile: the output buffer is stored
      have hl : isLast (grid1.coords t) := (isLast_iff t).mpr h3
      rw [show (dat V c).leavesExact 3 t = owns (c : Thread nD τ) (st1_3 t) fullShare ((dat V c).after 3 t) from by
        unfold Dat.leavesExact; rw [live_out t hl], after_o, acc_next V c t h0]
      unfold phiWith
      iintro ⟨⟨⟨R1, R2, R3, R4, R5, HS⟩, Hg⟩, Ho, ⟨%d0, H0⟩, ⟨%d1, H1⟩, ⟨%d2, H2⟩, ⟨%d3, H3⟩⟩
      iapply (run_last c Set.univ _ _ _ _ _ _ _ _ _ _ _ hf hl (blk V c 0 t) (blk V c 1 t) (blk V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [R1 R2 R3 R4 R5 HS Hg]
      · isplitr [Hg]
        · isplitl [R1]; · iexact R1
          isplitl [R2]; · iexact R2
          isplitl [R3]; · iexact R3
          isplitl [R4]; · iexact R4
          isplitl [R5]; · iexact R5
          iexact HS
        iexact Hg
      isplitl [Ho]; · iexact Ho
      isplitl [H0]; · iexact H0
      isplitl [H1]; · iexact H1
      isplitl [H2]; · iexact H2
      iexact H3
    · -- a middle tile
      have hl : ¬isLast (grid1.coords t) := fun h => h3 ((isLast_iff t).mp h)
      rw [Dat.leavesExact_idle (dat V c) 3 t (idle_out t hl) (noflush_out t hl)]
      unfold phiWith
      iintro ⟨⟨⟨R1, R2, R3, R4, R5, HS⟩, Hg⟩, Ho, ⟨%d0, H0⟩, ⟨%d1, H1⟩, ⟨%d2, H2⟩, H3⟩
      iapply (run_mid c Set.univ _ _ _ _ _ _ _ _ _ _ _ hf hl (blk V c 0 t) (blk V c 1 t) _ _)
      isplitl [H0]; · iexact H0
      isplitl [H1]; · iexact H1
      isplitl [HS]; · iexact HS
      iintro ⟨H0, H1, HS⟩
      isplitl [R1 R2 R3 R4 R5 HS Hg]
      · isplitr [Hg]
        · isplitl [R1]; · iexact R1
          isplitl [R2]; · iexact R2
          isplitl [R3]; · iexact R3
          isplitl [R4]; · iexact R4
          isplitl [R5]; · iexact R5
          iexact HS
        iexact Hg
      isplitl [Ho]; · iexact Ho
      isplitl [H0]; · iexact H0
      isplitl [H1]; · iexact H1
      isplitl [H2]; · iexact H2
      iexact H3

/-- The pipeline's obligation on the body, at every point. -/
theorem body_obligation (c : Dev nD) : BodyObligation (dat (F := F) V c) (defs₀ (F := F)) Variants.none () Set.univ := fun t => by
  rw [bigSep_W1, bigSep_W1]
  exact body_at V c t

end Cert.KernelIdeal.Aggregate

end
-- ==== Proof.KernelIdeal.Whole.lean ====
/-
  The whole program: the projection call, the host line that lays the bias out as a [1, 512] row, the aggregation call.

  The contents of the core's buffers are followed through the three items: B0 at launch; B1 after the projection call
  (its result array at what its write-backs leave, every other buffer untouched); B2 after the host line; B3 after the
  aggregation call (likewise). Each call enters the pipeline from "every unscoped buffer at the contents before it, the
  generator register at some state, nothing owed" and leaves at the same with the contents after it. The run ends with
  every unscoped buffer at B3; the four arguments of the program are read back through the three items to their launch
  contents, and the program's result is the aggregation call's result array.
-/
import proofs.«160564_j996432413322_1_alg».proof.Proof.Gen.KernelIdeal.Launch
import proofs.«160564_j996432413322_1_alg».proof.Proof.Gen.KernelIdeal.Skeleton
import proofs.«160564_j996432413322_1_alg».proof.Proof.Gen.KernelIdeal.Points
import proofs.«160564_j996432413322_1_alg».proof.Proof.Gen.KernelIdeal.Regions
import proofs.«160564_j996432413322_1_alg».proof.Proof.KernelIdeal.Project
import proofs.«160564_j996432413322_1_alg».proof.Proof.KernelIdeal.AggregateBody
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev B0 : Dev nD → Valuation τ sig (Elt F) := fun c b => m (c, b)
/-- The same read at the TensorCore's references: what the projection call's proof data take. -/
abbrev E0 : (c : Dev nD) → (b : Ref sig .tc) → Buf (Elt F) ((c : Thread nD τ).loc b) := fun c b => B0 m c b
/-- After the projection call. -/
def B1 (c : Dev nD) : Valuation τ sig (Elt F) :=
  Pipeline.withArrays spec0 c (B0 m c) fun w => (Project.dat (E0 m) c).arrAt w cfg0.N
abbrev E1 : (c : Dev nD) → (b : Ref sig .tc) → Buf (Elt F) ((c : Thread nD τ).loc b) := fun c b => B1 m c b
/-- After the host line (the aggregation call's entry). -/
abbrev B2 : Dev nD → Valuation τ sig (Elt F) := fun c => StableHlo.after hostOps1 (B1 m c)
abbrev E2 : (c : Dev nD) → (b : Ref sig .tc) → Buf (Elt F) ((c : Thread nD τ).loc b) := fun c b => B2 m c b
/-- After the aggregation call. -/
def B3 (c : Dev nD) : Valuation τ sig (Elt F) :=
  Pipeline.withArrays spec1 c (B2 m c) fun w => (Aggregate.dat (E2 m) c).arrAt w cfg1.N
abbrev E3 : (c : Dev nD) → (b : Ref sig .tc) → Buf (Elt F) ((c : Thread nD τ).loc b) := fun c b => B3 m c b

theorem B1_arr (c : Dev nD) (w : Fin cfg0.W) :
    B1 m c (Proc.devRef .tc (Pipeline.arrRef spec0 w)) = (Project.dat (E0 m) c).arrAt w cfg0.N := by
  unfold B1; exact Pipeline.withArrays_arr spec0 launch0.win.arr_inj c _ _ w
theorem B1_other (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
theorem B2_other (c : Dev nD) (b : Ref sig .tc) (hb : b ∉ hostOps1_W) :
    B2 m c (Proc.devRef .tc b) = B1 m c (Proc.devRef .tc b) :=
  StableHlo.after_of_writes_sub hostOps1 _ hostOps1_writes hb
theorem B3_arr (c : Dev nD) (w : Fin cfg1.W) :
    B3 m c (Proc.devRef .tc (Pipeline.arrRef spec1 w)) = (Aggregate.dat (E2 m) c).arrAt w cfg1.N := by
  unfold B3; exact Pipeline.withArrays_arr spec1 launch1.win.arr_inj c _ _ w
theorem B3_other (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb

/-- The two facts that put a call's arrays back among the core's buffers at its exit. -/
theorem exit0_arr (c : Dev nD) (w : Fin cfg0.W) : (Project.dat (E0 m) c).arrAt w cfg0.N = E1 m c (Pipeline.arrRef spec0 w) :=
  (B1_arr m c w).symm
theorem exit0_rest (c : Dev nD) : ∀ b, b ∉ Finset.univ.image (Pipeline.arrRef spec0) → E1 m c b = E0 m c b :=
  fun b hb => B1_other m c b fun w e => hb (Finset.mem_image.mpr ⟨w, Finset.mem_univ _, e⟩)
theorem exit1_arr (c : Dev nD) (w : Fin cfg1.W) : (Aggregate.dat (E2 m) c).arrAt w cfg1.N = E3 m c (Pipeline.arrRef spec1 w) :=
  (B3_arr m c w).symm
theorem exit1_rest (c : Dev nD) : ∀ b, b ∉ Finset.univ.image (Pipeline.arrRef spec1) → E3 m c b = E2 m c b :=
  fun b hb => B3_other m c b fun w e => hb (Finset.mem_image.mpr ⟨w, Finset.mem_univ _, e⟩)

/-! ## What the items leave where -/

/-- X reaches the end as launched: the projection call only reads it, nothing else touches it. -/
theorem B3_arg0 (c : Dev nD) : B3 m c (Proc.devRef .tc main_arg0) = m ((c : Thread nD τ).loc main_arg0) :=
  calc B3 m c (Proc.devRef .tc main_arg0)
    _ = B2 m c (Proc.devRef .tc main_arg0) := B3_other m c main_arg0 (by decide)
    _ = B1 m c (Proc.devRef .tc main_arg0) := B2_other m c main_arg0 (by decide)
    _ = B0 m c (Proc.devRef .tc main_arg0) :=
        (B1_arr m c 0).trans (((Project.dat (E0 m) c).arrAt_in 0 rfl _).trans (Project.dat_A (E0 m) c 0))
    _ = m ((c : Thread nD τ).loc main_arg0) := rfl
/-- W likewise. -/
theorem B3_arg2 (c : Dev nD) : B3 m c (Proc.devRef .tc main_arg2) = m ((c : Thread nD τ).loc main_arg2) :=
  calc B3 m c (Proc.devRef .tc main_arg2)
    _ = B2 m c (Proc.devRef .tc main_arg2) := B3_other m c main_arg2 (by decide)
    _ = B1 m c (Proc.devRef .tc main_arg2) := B2_other m c main_arg2 (by decide)
    _ = B0 m c (Proc.devRef .tc main_arg2) :=
        (B1_arr m c 1).trans (((Project.dat (E0 m) c).arrAt_in 1 rfl _).trans (Project.dat_A (E0 m) c 1))
    _ = m ((c : Thread nD τ).loc main_arg2) := rfl
/-- The bias vector is read by the host line only. -/
theorem B3_arg3 (c : Dev nD) : B3 m c (Proc.devRef .tc main_arg3) = m ((c : Thread nD τ).loc main_arg3) :=
  calc B3 m c (Proc.devRef .tc main_arg3)
    _ = B2 m c (Proc.devRef .tc main_arg3) := B3_other m c main_arg3 (by decide)
    _ = B1 m c (Proc.devRef .tc main_arg3) := B2_other m c main_arg3 (by decide)
    _ = B0 m c (Proc.devRef .tc main_arg3) := B1_other m c main_arg3 (by decide)
    _ = m ((c : Thread nD τ).loc main_arg3) := rfl
/-- A enters the aggregation call as launched, -/
theorem E2_arg1 (c : Dev nD) : E2 m c main_arg1 = m ((c : Thread nD τ).loc main_arg1) :=
  calc B2 m c (Proc.devRef .tc main_arg1)
    _ = B1 m c (Proc.devRef .tc main_arg1) := B2_other m c main_arg1 (by decide)
    _ = B0 m c (Proc.devRef .tc main_arg1) := B1_other m c main_arg1 (by decide)
    _ = m ((c : Thread nD τ).loc main_arg1) := rfl
/-- and leaves it so: the call only reads it. -/
theorem B3_arg1 (c : Dev nD) : B3 m c (Proc.devRef .tc main_arg1) = m ((c : Thread nD τ).loc main_arg1) :=
  (B3_arr m c 0).trans (((Aggregate.dat (E2 m) c).arrAt_in 0 rfl _).trans ((Aggregate.dat_A (E2 m) c 0).trans (E2_arg1 m c)))
/-- The support matrix enters the aggregation call as the projection call left it. -/
theorem E2_v0 (c : Dev nD) : E2 m c main_v0 = (Project.dat (E0 m) c).arrAt 2 cfg0.N :=
  (B2_other m c main_v0 (by decide)).trans (B1_arr m c 2)
/-- The bias row enters it as the host line made it: the bias vector re-laid as one row. -/
theorem E2_v1 (c : Dev nD) :
    E2 m c main_v1 = shapeCast S1x512 (m ((c : Thread nD τ).loc main_arg3)) shapeCasts_S512_S1x512 := by
  show StableHlo.after hostOps1 (B1 m c) (Proc.devRef .tc main_v1) = _
  after_results
  exact congrArg (fun x => shapeCast S1x512 x shapeCasts_S512_S1x512) ((B1_other m c main_arg3 (by decide)).trans rfl)
/-- The program's result is the aggregation call's result array. -/
theorem B3_v2 (c : Dev nD) : B3 m c (Proc.devRef .tc main_v2) = (Aggregate.dat (E2 m) c).arrAt 3 cfg1.N :=
  B3_arr m c 3

/-! ## The two calls' proof data together, and what rides beside the buffers -/

/-- No call has a prefetched table. -/
abbrev noTables : (p : Fin 2) → (pcfgs (F := F) p).Adm := fun p => (cfgs p).toPCfg_adm
/-- Both calls' proof data, each at the contents its call is entered from. -/
def both : (p : Fin 2) → (c : Dev nD) → Dat τ (Elt F) Unit ℕ (UR sig nD τ) ℕ (Pipeline.pin (pcfgs (F := F)) noTables p) c
  | ⟨0, _⟩ => fun c => Project.dat (E0 m) c
  | ⟨1, _⟩ => fun c => Aggregate.dat (E2 m) c
abbrev noVariants : Variants := Variants.none
/-- No core owes another anything. -/
abbrev noPairs : GSem nD τ sig → Finset Unit := fun _ => ∅
abbrev noLevels : GSem nD τ sig → Unit → ℕ := fun _ _ => 0
/-- Beside the buffers: the generator register at some state, and the core owing nothing. -/
abbrev beside (c : Dev nD) : sProp 𝕄 := iprop((∃ r, prngReg c r) ∗ ∃ W, owes (c : Thread nD τ) (0 : CellTallies nD τ sig Unit) W)
/-- The state the run ends in, without the `owes`. -/
abbrev endState (c : Dev nD) : sProp 𝕄 := iprop(StableHlo.held (c : Thread nD τ) (Pipeline.ucRefs τ sig) (B3 m c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The host line as a segment of the run, entered from B1 and left at B2. -/
abbrev biasLine : Pipeline.HostSeg (Name := ℕ) (U := UR sig nD τ) (pcfgs (F := F)) defs₀ noVariants noPairs noLevels :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (B1 m) beside

/-! ## The two calls as segments of the run -/

set_option backward.isDefEq.respectTransparency.types false in
/-- The projection call: entered from every unscoped buffer at B0, left at B1. Its three arrays are taken out of the
    buffers at entry and put back at their final contents at exit; the generator register goes into the call's invariant
    and comes back; nothing is owed; the body has no semaphore of its own. -/
def projCall : Pipeline.RegionSeg (pcfgs (F := F)) noTables (both m) () defs₀ noVariants noPairs noLevels 0 where
  win := launch0.win.to₀
  block_pos := launch0.block_pos
  stage_whole := launch0.stage_whole
  K := PEmpty
  osem k := k.elim
  ho := Pipeline.OwnSemFacts.none _
  hbody c := (Project.body_obligation (E0 m) c).loose
  hwaits := Pipeline.hwaits_of_owed_zero _ _ _ _ noPairs noLevels 0 fun _ _ => rfl
  pre c := iprop(StableHlo.held (c : Thread nD τ) (Pipeline.ucRefs τ sig) (B0 m c) ∗ beside c)
  post c := iprop(StableHlo.held (c : Thread nD τ) (Pipeline.ucRefs τ sig) (B1 m c) ∗ beside c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) noTables (both m) launch0.win launch0.arr_whole c
      ((both m 0 c).share_full fun _ => rfl) (E0 m c) fun _ => rfl
    rw [Pipeline.unscopedBufs_held] at hsplit
    iintro ⟨⟨Hbufs, Hg, Ho⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Ho]
    · unfold Pipeline.Dat.owesAt Pipeline.owesWithin
      icases Ho with ⟨%W, Ho⟩; iexists W; isplitr; · ipureintro; exact fun _ _ => Or.inl trivial
      iexact Ho
    isplitl [Hg]; · iexact Hg
    iexact Hrest
  hin c := by
    rw [show (both m 0 c).Φ 0 = Pipeline.ΦA spec0 c from rfl]; unfold Pipeline.ΦA
    iintro ⟨Hg, -, Hr⟩
    isplitl [Hr]; · iexact Hr
    iexact Hg
  hout c := by
    rw [Pipeline.ownSems0_none, show (both m 0 c).Φ (Fin.last _) = Pipeline.ΦA spec0 c from rfl]; unfold Pipeline.ΦA
    iintro ⟨Hr, Hg⟩
    isplitl [Hg]; · iexact Hg
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (both m) ((both m 0 c).share_full fun _ => rfl)
      (E0 m c) (E1 m c) ((both m 0 c).arrAt · cfg0.N) (exit0_arr m c) (exit0_rest m c)
    rw [Pipeline.unscopedBufs_held] at hjoin
    iintro ⟨Harr, Ho, Hg, Hrest⟩
    imodintro
    isplitl [Harr Hrest]
    · iapply hjoin; isplitl [Harr] <;> iassumption
    isplitl [Hg]; · iexact Hg
    unfold Pipeline.Dat.owesAt Pipeline.owesWithin
    icases Ho with ⟨%W, -, Ho⟩; iexists W; iexact Ho

set_option backward.isDefEq.respectTransparency.types false in
/-- The aggregation call: entered from every unscoped buffer at B2, left at B3 with the core owing nothing. As for the
    projection call, except that its invariant keeps the accumulator: the pipeline's own invariant enters it before the
    first point (`phi_in`) and is given back after the last (`phi_out`). -/
def aggCall : Pipeline.RegionSeg (pcfgs (F := F)) noTables (both m) () defs₀ noVariants noPairs noLevels 1 where
  win := launch1.win.to₀
  block_pos := launch1.block_pos
  stage_whole := launch1.stage_whole
  K := PEmpty
  osem k := k.elim
  ho := Pipeline.OwnSemFacts.none _
  hbody c := (Aggregate.body_obligation (E2 m) c).loose
  hwaits := Pipeline.hwaits_of_owed_zero _ _ _ _ noPairs noLevels 1 fun _ _ => rfl
  pre c := iprop(StableHlo.held (c : Thread nD τ) (Pipeline.ucRefs τ sig) (B2 m c) ∗ beside c)
  post c := iprop(endState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) noTables (both m) launch1.win launch1.arr_whole c
      ((both m 1 c).share_full fun _ => rfl) (E2 m c) fun _ => rfl
    rw [Pipeline.unscopedBufs_held] at hsplit
    iintro ⟨⟨Hbufs, Hg, Ho⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Ho]
    · unfold Pipeline.Dat.owesAt Pipeline.owesWithin
      icases Ho with ⟨%W, Ho⟩; iexists W; isplitr; · ipureintro; exact fun _ _ => Or.inl trivial
      iexact Ho
    isplitl [Hg]; · iexact Hg
    iexact Hrest
  hin c := by
    refine BIBase.Entails.trans ?_ (show Pipeline.ΦA spec1 c ⊢ (both m 1 c).Φ 0 from Aggregate.phi_in (E2 m) c)
    unfold Pipeline.ΦA
    iintro ⟨Hg, -, Hr⟩
    isplitl [Hr]; · iexact Hr
    iexact Hg
  hout c := by
    rw [Pipeline.ownSems0_none]
    refine BIBase.Entails.trans (show (both m 1 c).Φ (Fin.last _) ⊢ Pipeline.ΦA spec1 c from Aggregate.phi_out (E2 m) c) ?_
    unfold Pipeline.ΦA
    iintro ⟨Hr, Hg⟩
    isplitl [Hg]; · iexact Hg
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (both m) ((both m 1 c).share_full fun _ => rfl)
      (E2 m c) (E3 m c) ((both m 1 c).arrAt · cfg1.N) (exit1_arr m c) (exit1_rest m c)
    rw [Pipeline.unscopedBufs_held] at hjoin
    iintro ⟨Harr, Ho, Hg, Hrest⟩
    imodintro
    isplitl [Harr Hrest Hg]
    · isplitl [Harr Hrest]
      · iapply hjoin; isplitl [Harr] <;> iassumption
      iexact Hg
    unfold Pipeline.Dat.owesAt Pipeline.owesWithin
    icases Ho with ⟨%W, -, Ho⟩; iexists W; iexact Ho

/-! ## The run -/

/-- The program's three items in order. -/
abbrev items : List (Pipeline.Seg (pcfgs (F := F)) noTables (both m) () defs₀ noVariants noPairs noLevels) :=
  [ .region (projCall m), .host (biasLine m), .region (aggCall m) ]

theorem main_items (c : Dev nD) : main (F := F) c = Pipeline.Seg.run (items m) := (main_chain c).trans (by chain_rfl)

set_option backward.isDefEq.respectTransparency.types false in
/-- From any memory with every counter at zero, every weakly fair execution of the program terminates, nothing faulting,
    and ends with every unscoped buffer of every core at B3. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) noTables (both m) () cellOf_inj emb₁ defs₀ noVariants noPairs noLevels m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ beside c)) (Tₙ := endState m)
    (hch := ⟨fun _ => .rfl, fun _ => .rfl, fun _ => .rfl, fun _ => .rfl⟩)
    (hinit := by
      refine Pipeline.initEach noPairs noLevels fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, Ho, -, Hg, -⟩, -⟩
      imodintro
      isplitl [Hh]; · iexact Hh
      isplitl [Hg]; · iexists _; iexact Hg
      iexists ∅; iexact Ho)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- The frame: the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (B3_arg0 m c),
     (h c _ (mem_uc main_arg1 (by decide))).trans (B3_arg1 m c),
     (h c _ (mem_uc main_arg2 (by decide))).trans (B3_arg2 m c),
     (h c _ (mem_uc main_arg3 (by decide))).trans (B3_arg3 m c)⟩) (run_all m ρ)

/-- The run with its result named: the program's result is the aggregation call's result array, and the four
    arguments end as launched. -/
theorem run_result : θ_run defs (onTc (τ := τ) (main (F := F))) ⟨m, fun _ => 0, ρ⟩ (fun r => ∀ c : Dev nD,
      r.2.mem ((c.tc : Thread nD τ).loc main_v2) = (Aggregate.dat (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (B3_v2 m c),
     (h c _ (mem_uc main_arg0 (by decide))).trans (B3_arg0 m c),
     (h c _ (mem_uc main_arg1 (by decide))).trans (B3_arg1 m c),
     (h c _ (mem_uc main_arg2 (by decide))).trans (B3_arg2 m c),
     (h c _ (mem_uc main_arg3 (by decide))).trans (B3_arg3 m c)⟩) (run_all m ρ)

end Cert.KernelIdeal.Whole

end
-- ==== Proof.Spec.lean ====
/-
  What both programs compute, as plain sums over the extended reals.

  With X : [8192, 512], A : [8192, 8192], W : [512, 512] and b : [512],
    support X W (r, j)      = ∑ k < 512,  X (r, k) * W (k, j)                       (the projection X · W)
    aggregate A S b (r, j)  = (∑ q < 8192, A (r, q) * S (q, j)) + b (0, j)          (the aggregation A · S, plus the bias row)
  The graph convolution is `aggregate A (support X W) b`.

  The kernel does not form the sum over q in one piece: it walks four column tiles of A of width 2048, starting
  from zero and adding one tile's partial product at a time. `tile_sum` says that the walk over tiles is the
  whole sum: addition of extended reals is associative and commutative (no finiteness is needed), and
  (tile, offset) ↦ 2048 · tile + offset is a bijection onto the 8192 columns.
-/
import Idealize.ShloMosaic.PureOps.Ideal
import Idealize.ShloMosaic.Lib.ValueIdx
import Mathlib.Algebra.BigOperators.Fin
import Mathlib.Logic.Equiv.Fin.Basic

noncomputable section

open scoped BigOperators

namespace Cert.GraphConv

open Idealize.ShloMosaic Idealize.ShloMosaic.ValueIdx

/-- A matrix of extended reals with literal extents. -/
abbrev Mat (r c : Nat) : Type := (⟨2, ![r, c]⟩ : Shape).Idx → EReal

/-- One entry of the projection X · W. -/
def supportAt (X : Mat 8192 512) (W : Mat 512 512) (r : Fin 8192) (j : Fin 512) : EReal :=
  ∑ k : Fin 512, X (ix2 r k) * W (ix2 k j)

/-- The projection X · W. -/
def support (X : Mat 8192 512) (W : Mat 512 512) : Mat 8192 512 :=
  fun i => supportAt X W (i 0) (i 1)

/-- One entry of A · S plus the bias row. -/
def aggregateAt (A : Mat 8192 8192) (S : Mat 8192 512) (b : Mat 1 512) (r : Fin 8192) (j : Fin 512) : EReal :=
  (∑ q : Fin 8192, A (ix2 r q) * S (ix2 q j)) + b (ix2 0 j)

/-- A · S plus the bias row, every row of the result getting the same bias. -/
def aggregate (A : Mat 8192 8192) (S : Mat 8192 512) (b : Mat 1 512) : Mat 8192 512 :=
  fun i => aggregateAt A S b (i 0) (i 1)

/-- The bias vector b : [512] laid out as the one row of a [1, 512] matrix. -/
def biasRow (b : (⟨1, ![512]⟩ : Shape).Idx → EReal) : Mat 1 512 := fun j => b (ix1 (j 1))

/-- Column 2048 · k + p of an 8192-wide axis: offset p inside tile k. -/
def tileCol (k : Fin 4) (p : Fin 2048) : Fin 8192 := ⟨2048 * k.val + p.val, by have := k.isLt; have := p.isLt; omega⟩

/-- The four column tiles exhaust the 8192 columns, each column met once. -/
def tileEquiv : Fin 4 × Fin 2048 ≃ Fin 8192 where
  toFun kp := tileCol kp.1 kp.2
  invFun q := (⟨q.val / 2048, by have := q.isLt; omega⟩, ⟨q.val % 2048, Nat.mod_lt _ (by norm_num)⟩)
  left_inv kp := by
    obtain ⟨⟨k, hk⟩, ⟨p, hp⟩⟩ := kp
    simp only [tileCol, Prod.mk.injEq, Fin.mk.injEq]
    constructor <;> omega
  right_inv q := by
    apply Fin.ext
    simp only [tileCol]
    omega

/-- A sum over the 8192 columns is the sum over the four tiles of the sums inside each tile. -/
theorem sum_tiles (f : Fin 8192 → EReal) : ∑ q : Fin 8192, f q = ∑ k : Fin 4, ∑ p : Fin 2048, f (tileCol k p) := by
  rw [← Equiv.sum_comp tileEquiv f, Fintype.sum_prod_type]
  rfl

/-- Starting from zero and adding the four tiles' partial sums in order gives the whole sum. -/
theorem tile_walk (f : Fin 8192 → EReal) :
    (((((0 : EReal) + ∑ p : Fin 2048, f (tileCol 0 p)) + ∑ p : Fin 2048, f (tileCol 1 p)) + ∑ p : Fin 2048, f (tileCol 2 p))
      + ∑ p : Fin 2048, f (tileCol 3 p)) = ∑ q : Fin 8192, f q := by
  rw [sum_tiles, Fin.sum_univ_four, zero_add]

end Cert.GraphConv

end
-- ==== Proof.KernelIdeal.ProjectValue.lean ====
/-
  What the projection call leaves in its result array, over the extended reals: the matrix product X · W.

  Point t of the sixteen writes back block t of the result, rows 512·t … 512·t + 511, holding the product of the row
  block t of X with W: entry (p, j) of the block is the sum over k of X (512·t + p, k) * W (k, j), which is entry
  (512·t + p, j) of X · W. The sixteen blocks tile the array, so the array ends at X · W.
-/
import proofs.«160564_j996432413322_1_alg».proof.Proof.KernelIdeal.Project
import proofs.«160564_j996432413322_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ProjectValue

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

/-! ## The product inside one block

The body multiplies its two 512 × 512 blocks contracting the left operand's second axis against the right operand's
first. Over the extended reals the narrowing of the operands to bf16 changes nothing and the accumulator starts at
zero, so entry (p, j) of the result is the plain sum over k of x (p, k) * w (k, j). -/

/-- The left operand is read in the output's row, -/
theorem lhs_row (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
/-- at the contracted column; -/
theorem lhs_col (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
/-- the right operand at the contracted row, -/
theorem rhs_row (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
/-- in the output's column. -/
theorem rhs_col (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- Entry (p, j) of the body's result is the sum over k of x (p, k) * w (k, j). -/
theorem product_at (x w : Vec Ideal S512x512 .f32) (p j : Fin 512) :
    k0_pay1 x w (ix2 p j) = ∑ k : Fin 512, x (ix2 p k) * w (ix2 k j) := by
  unfold k0_pay1
  show FloatOps.matmul dot_S512x512_S512x512_S512x512_1_0_0_1_n_n none (truncf .bf16 x bitsLt_bf16_f32) (truncf .bf16 w bitsLt_bf16_f32)
    (constant (F := Ideal) S512x512 .f32 0x00000000#32) (ix2 p j) = _
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p j) ((contrEquiv1 dot_S512x512_S512x512_S512x512_1_0_0_1_n_n 512 rfl rfl).symm k) = ix2 p k :=
    funext fun a => Fin.ext (by
      match a with
      | ⟨0, _⟩ => exact lhs_row _ _
      | ⟨1, _⟩ => exact (lhs_col _ _).trans hk)
  have er : dot_S512x512_S512x512_S512x512_1_0_0_1_n_n.rhsIdx (ix2 p j) ((contrEquiv1 dot_S512x512_S512x512_S512x512_1_0_0_1_n_n 512 rfl rfl).symm k) = ix2 k j :=
    funext fun a => Fin.ext (by
      match a with
      | ⟨0, _⟩ => exact (rhs_row _ _).trans hk
      | ⟨1, _⟩ => exact rhs_col _ _)
  rw [truncf_apply, truncf_apply, el, er]

/-! ## The blocks the three windows hold

The row-block window and the result window sit at block row t at point t; the weight window sits at the one block
there is. A block's element (p, q) lies in its array at (block row · 512 + p, block column · 512 + q). -/

/-- The three windows' block indices at every point of the grid. -/
theorem block_index : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

/-- Row p of block row t is a row of the 8192. -/
theorem row_lt (t : Fin cfg0.N) (p : Fin 512) : 512 * t.val + p.val < 8192 := by
  have ht : t.val < 16 := t.isLt.trans_eq N_0
  have hp := p.isLt
  omega

/-- Row p of block row t, as a row of the 8192. -/
abbrev rowOf (t : Fin cfg0.N) (p : Fin 512) : Fin 8192 := ⟨512 * t.val + p.val, row_lt t p⟩

variable (V : (c : Dev nD) → (b : Ref sig .tc) → Buf (Elt Ideal) ((c : Thread nD τ).loc b))

/-- The row block at point t is rows 512·t … 512·t + 511 of X. -/
theorem x_block_at (c : Dev nD) (t : Fin cfg0.N) (p k : Fin 512) :
    (Project.blk V c 0 t : Vec Ideal S512x512 .f32) (ix2 p k) = (V c main_arg0 : Mat 8192 512) (ix2 (rowOf t p) k) := by
  obtain ⟨⟨e0, e1⟩, -, -⟩ := block_index t
  unfold Project.blk
  rw [View.read_apply]
  show V c main_arg0 (((cfg0.win 0).blk t).view.emb (ix2 p k)) = V c main_arg0 (ix2 (rowOf t p) k)
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 512 + 1 * k.val = k.val; rw [e1]; omega

/-- The weight block at every point is all of W. -/
theorem w_block_at (c : Dev nD) (t : Fin cfg0.N) (k j : Fin 512) :
    (Project.blk V c 1 t : Vec Ideal S512x512 .f32) (ix2 k j) = (V c main_arg2 : Mat 512 512) (ix2 k j) := by
  obtain ⟨-, ⟨e0, e1⟩, -⟩ := block_index t
  unfold Project.blk
  rw [View.read_apply]
  show V c main_arg2 (((cfg0.win 1).blk t).view.emb (ix2 k j)) = V c main_arg2 (ix2 k j)
  congr 1
  funext a
  apply Fin.ext
  match a with
  | ⟨0, _⟩ => show win0_1.index t (0 : Fin 2) * 512 + 1 * k.val = k.val; rw [e0]; omega
  | ⟨1, _⟩ => show win0_1.index t (1 : Fin 2) * 512 + 1 * j.val = j.val; rw [e1]; omega

/-- Element (p, j) of the result block at point t lies in the result array at (512·t + p, j). -/
theorem o_block_at (t : Fin cfg0.N) (p j : Fin 512) :
    ((cfg0.win 2).blk t).view.emb (ix2 p j) = (ix2 (rowOf t p) j : S8192x512.Idx) := by
  obtain ⟨-, -, ⟨e0, e1⟩⟩ := block_index t
  funext a
  apply Fin.ext
  match a with
  | ⟨0, _⟩ => show win0_2.index t (0 : Fin 2) * 512 + 1 * p.val = 512 * t.val + p.val; rw [e0]; omega
  | ⟨1, _⟩ => show win0_2.index t (1 : Fin 2) * 512 + 1 * j.val = j.val; rw [e1]; omega

/-! ## What a point writes back, and the whole array -/

/-- What point t writes back is block t of X · W. -/
theorem flushed_eq (c : Dev nD) (t : Fin cfg0.N) :
    (Project.dat V c).flushed 2 t
      = ((cfg0.win 2).blk t).view.read (Elt Ideal) (support (V c main_arg0) (V c main_arg2)) := by
  show (cfg0.win 2).cut (grid0.coords t) ((Project.dat V c).after 2 t) = _
  rw [Project.after_o]
  funext y
  obtain ⟨p, j, rfl⟩ : ∃ (p : Fin 512) (j : Fin 512), y = ix2 p j := ⟨y 0, y 1, eq_ix2 y⟩
  rw [View.read_apply]
  show k0_pay1 (Project.blk V c 0 t) (Project.blk V c 1 t) (ix2 p j)
    = support (V c main_arg0) (V c main_arg2) (((cfg0.win 2).blk t).view.emb (ix2 p j))
  rw [o_block_at]
  refine (product_at _ _ p j).trans ?_
  show _ = supportAt (V c main_arg0) (V c main_arg2) (rowOf t p) j
  unfold supportAt
  refine Finset.sum_congr rfl fun k _ => ?_
  rw [x_block_at, w_block_at]

/-- An index of the result array is in point t's block iff each coordinate is in the block's range on its axis. -/
theorem mem_block (t : Fin cfg0.N) (i : S8192x512.Idx) :
    i ∈ ((cfg0.win 2).blk t).view.set
      ↔ ∀ a : Fin 2, win0_2.index t a * S512x512.size a ≤ (i a).val ∧ (i a).val < win0_2.index t a * S512x512.size a + S512x512.size a := by
  show i ∈ ((View.whole main_v0).slice (win0_2.rect t)).set ↔ _
  rw [View.set_slice_whole, Rect.mem_set_unit]
  exact Iff.rfl

/-- Every row r of the result lies in the block of point r / 512, and every point writes its block back. -/
theorem covered (i : S8192x512.Idx) :
    ∃ t : Fin cfg0.N, (cfg0.win 2).flush t = true ∧ i ∈ ((cfg0.win 2).blk t).view.set := by
  have hi0 : (i 0).val < 8192 := idx2_lt0 i
  have hi1 : (i 1).val < 512 := idx2_lt1 i
  have hN : (i 0).val / 512 < cfg0.N := by rw [show cfg0.N = 16 from N_0]; omega
  obtain ⟨-, -, ⟨e0, e1⟩⟩ := block_index ⟨(i 0).val / 512, hN⟩
  refine ⟨⟨(i 0).val / 512, hN⟩, flush0_2 _, ?_⟩
  rw [mem_block]
  intro a
  match a with
  | ⟨0, _⟩ =>
    show win0_2.index ⟨(i 0).val / 512, hN⟩ (0 : Fin 2) * 512 ≤ (i 0).val
      ∧ (i 0).val < win0_2.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_2.index ⟨(i 0).val / 512, hN⟩ (1 : Fin 2) * 512 ≤ (i 1).val
      ∧ (i 1).val < win0_2.index ⟨(i 0).val / 512, hN⟩ (1 : Fin 2) * 512 + 512
    rw [e1]; omega

/-- After the call the result array holds the product of the array behind the first window (X) and the array behind
    the second (W), as the call found them. -/
theorem final (c : Dev nD) :
    (Project.dat V c).arrAt 2 cfg0.N = support (V c main_arg0) (V c main_arg2) :=
  (Project.dat V c).arrAt_eq_of_cover 2 (support (V c main_arg0) (V c main_arg2)) (fun t _ => flushed_eq V c t) covered

end Cert.KernelIdeal.ProjectValue

end
-- ==== Proof.KernelIdeal.AggregateValue.lean ====
/-
  What the aggregation call leaves in its result array, over the extended reals: A · S plus the bias row.

  Row block i of the result is written back once, after the last of its four tiles. By then the accumulator has been
  set to zero and has received, tile by tile, the products of tile (i, k) of A with row tile k of S, k = 0, 1, 2, 3:
  its entry (p, j) is  (((0 + P₀) + P₁) + P₂) + P₃  with  Pₖ = ∑ q < 2048, A (512·i + p, 2048·k + q) * S (2048·k + q, j).
  Walking the four tiles in order is the whole sum over the 8192 columns (addition of extended reals is associative and
  commutative). The stored block adds the bias row under every row, so the array ends at A · S plus the bias row; the
  sixteen row blocks tile the array.
-/
import proofs.«160564_j996432413322_1_alg».proof.Proof.KernelIdeal.AggregateBody
import proofs.«160564_j996432413322_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.AggregateValue

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

/-! ## The body's three values at an entry -/

/-- The block the accumulator is reset to is zero everywhere. -/
theorem zero_block_apply (p j : Fin 512) : (k1_pay1 (F := Ideal)) (ix2 p j) = 0 := by
  unfold k1_pay1
  rw [shapeCast_self]
  exact Ideal.ofBits_zero_f32

/-! The tile product's operand positions: output entry (p, j) and inner position q read the left tile at (p, q) and the
    right tile at (q, j), axis by axis. -/

theorem lhs_tile_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhs_tile_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem rhs_tile_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem rhs_tile_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The product of a 512 × 2048 tile and a 2048 × 512 tile into a zero accumulator: entry (p, j) is the sum over the
    2048 inner positions. -/
theorem tile_product_apply (x : FVec Ideal S512x2048 .bf16) (s : FVec Ideal S2048x512 .bf16) (p j : Fin 512) :
    matmul dot_S512x2048_S2048x512_S512x512_1_0_0_1_n_n none x s (constant S512x512 .f32 0x00000000#32) (ix2 p j)
      = ∑ q : Fin 2048, x (ix2 p q) * s (ix2 q j) := by
  simp only [matmul]
  rw [Ideal.matmul_constant_zero_apply, ← Equiv.sum_comp (ValueIdx.contrEquiv1 dot_S512x2048_S2048x512_S512x512_1_0_0_1_n_n 2048 rfl rfl).symm]
  refine Finset.sum_congr rfl fun k _ => ?_
  have hk := ValueIdx.contrEquiv1_symm_val dot_S512x2048_S2048x512_S512x512_1_0_0_1_n_n 2048 rfl rfl k
  have el : dot_S512x2048_S2048x512_S512x512_1_0_0_1_n_n.lhsIdx (ix2 p j) ((ValueIdx.contrEquiv1 dot_S512x2048_S2048x512_S512x512_1_0_0_1_n_n 2048 rfl rfl).symm k) = ix2 p k := funext fun a => Fin.ext (by
    match a with
    | ⟨0, _⟩ => exact lhs_tile_0 _ _
    | ⟨1, _⟩ => exact (lhs_tile_1 _ _).trans hk)
  have er : dot_S512x2048_S2048x512_S512x512_1_0_0_1_n_n.rhsIdx (ix2 p j) ((ValueIdx.contrEquiv1 dot_S512x2048_S2048x512_S512x512_1_0_0_1_n_n 2048 rfl rfl).symm k) = ix2 k j := funext fun a => Fin.ext (by
    match a with
    | ⟨0, _⟩ => exact (rhs_tile_0 _ _).trans hk
    | ⟨1, _⟩ => exact rhs_tile_1 _ _)
  rw [el, er]

/-- One accumulation step: the accumulator's entry plus the tile product's entry. Rounding the tiles to the narrower
    format changes nothing over the extended reals. -/
theorem accumulate_apply (x : Vec Ideal S512x2048 .f32) (s : Vec Ideal S2048x512 .f32) (a : Vec Ideal S512x512 .f32)
    (p j : Fin 512) :
    k1_pay2 x s a (ix2 p j) = a (ix2 p j) + ∑ q : Fin 2048, x (ix2 p q) * s (ix2 q j) := by
  unfold k1_pay2
  simp only [shapeCast_self]
  rw [addf_apply, tile_product_apply]
  rfl

/-- The stored block: the accumulator's entry plus the bias row's entry in the same column. -/
theorem add_bias_apply (a : Vec Ideal S512x512 .f32) (b : Vec Ideal S1x512 .f32) (p j : Fin 512) :
    k1_pay3 a b (ix2 p j) = a (ix2 p j) + b (ix2 0 j) := by
  unfold k1_pay3
  simp only [shapeCast_self]
  rw [addf_apply]
  refine congrArg (a (ix2 p j) + ·) ?_
  refine broadcastTo_apply b broadcasts_S1x512_S512x512 (ix2 p j) (ix2 0 j) fun a => ?_
  match a with
  | ⟨0, _⟩ => show 0 = if (1 : Nat) = 1 then 0 else _; rw [if_pos rfl]
  | ⟨1, _⟩ => show j.val = if (512 : Nat) = 1 then 0 else j.val; rw [if_neg (by decide)]

variable (V : (c : Dev nD) → (b : Ref sig .tc) → Buf (Elt Ideal) ((c : Thread nD τ).loc b))

/-! ## Where a point's blocks sit in the arrays -/

/-- The three arrays the call reads, as matrices of extended reals, -/
abbrev arrA (c : Dev nD) : Mat 8192 8192 := V c main_arg1
abbrev arrS (c : Dev nD) : Mat 8192 512 := V c main_v0
abbrev arrB (c : Dev nD) : Mat 1 512 := V c main_v1

/-- and their blocks at a point. -/
abbrev tileA (c : Dev nD) (t : Fin cfg1.N) : Vec Ideal S512x2048 .f32 := Aggregate.blk V c 0 t
abbrev tileS (c : Dev nD) (t : Fin cfg1.N) : Vec Ideal S2048x512 .f32 := Aggregate.blk V c 1 t
abbrev biasBlock (c : Dev nD) (t : Fin cfg1.N) : Vec Ideal S1x512 .f32 := Aggregate.blk V c 2 t

/-- Row 512 · i + p of an 8192-row axis: row p inside row block i. -/
def blockRow (i : Fin 16) (p : Fin 512) : Fin 8192 := ⟨512 * i.val + p.val, by have := i.isLt; have := p.isLt; omega⟩

/-- The windows' index maps over the grid: point t = 4·i + k takes tile (i, k) of A, row tile k of S, the whole bias
    row, and output row block i. -/
theorem index_maps : ∀ t : Fin cfg1.N,
    (win1_0.index t (0 : Fin 2) = t.val / 4 ∧ win1_0.index t (1 : Fin 2) = t.val % 4)
    ∧ (win1_1.index t (0 : Fin 2) = t.val % 4 ∧ win1_1.index t (1 : Fin 2) = 0)
    ∧ (win1_2.index t (0 : Fin 2) = 0 ∧ win1_2.index t (1 : Fin 2) = 0)
    ∧ (win1_3.index t (0 : Fin 2) = t.val / 4 ∧ win1_3.index t (1 : Fin 2) = 0) :=
  (by decide +kernel : ∀ t : Fin grid1.N, _)

/-- The tile of A at point 4·i + k, entry (p, q), is A at row 512·i + p and column 2048·k + q. -/
theorem tile_a_apply (c : Dev nD) (t : Fin cfg1.N) (i : Fin 16) (k : Fin 4) (hi : t.val / 4 = i.val) (hk : t.val % 4 = k.val)
    (p : Fin 512) (q : Fin 2048) :
    tileA V c t (ix2 p q) = arrA V c (ix2 (blockRow i p) (tileCol k q)) := by
  obtain ⟨⟨e0, e1⟩, -, -, -⟩ := index_maps t
  unfold tileA Aggregate.blk
  rw [View.read_apply]
  show V c main_arg1 (((cfg1.win 0).blk t).view.emb (ix2 p q)) = V c main_arg1 _
  refine congrArg (V c main_arg1) (funext fun a => Fin.ext ?_)
  match a with
  | ⟨0, _⟩ => show win1_0.index t (0 : Fin 2) * 512 + 1 * p.val = 512 * i.val + p.val; rw [e0, hi]; omega
  | ⟨1, _⟩ => show win1_0.index t (1 : Fin 2) * 2048 + 1 * q.val = 2048 * k.val + q.val; rw [e1, hk]; omega

/-- The row tile of S at point 4·i + k, entry (q, j), is S at row 2048·k + q and column j. -/
theorem tile_s_apply (c : Dev nD) (t : Fin cfg1.N) (k : Fin 4) (hk : t.val % 4 = k.val) (q : Fin 2048) (j : Fin 512) :
    tileS V c t (ix2 q j) = arrS V c (ix2 (tileCol k q) j) := by
  obtain ⟨-, ⟨e0, e1⟩, -, -⟩ := index_maps t
  unfold tileS Aggregate.blk
  rw [View.read_apply]
  show V c main_v0 (((cfg1.win 1).blk t).view.emb (ix2 q j)) = V c main_v0 _
  refine congrArg (V c main_v0) (funext fun a => Fin.ext ?_)
  match a with
  | ⟨0, _⟩ => show win1_1.index t (0 : Fin 2) * 2048 + 1 * q.val = 2048 * k.val + q.val; rw [e0, hk]; omega
  | ⟨1, _⟩ => show win1_1.index t (1 : Fin 2) * 512 + 1 * j.val = j.val; rw [e1]; omega

/-- The bias block is the whole bias row at every point. -/
theorem bias_apply (c : Dev nD) (t : Fin cfg1.N) (j : Fin 512) :
    biasBlock V c t (ix2 0 j) = arrB V c (ix2 0 j) := by
  obtain ⟨-, -, ⟨e0, e1⟩, -⟩ := index_maps t
  unfold biasBlock Aggregate.blk
  rw [View.read_apply]
  show V c main_v1 (((cfg1.win 2).blk t).view.emb (ix2 0 j)) = V c main_v1 _
  refine congrArg (V c main_v1) (funext fun a => Fin.ext ?_)
  match a with
  | ⟨0, _⟩ => show win1_2.index t (0 : Fin 2) * 1 + 1 * 0 = 0; rw [e0]
  | ⟨1, _⟩ => show win1_2.index t (1 : Fin 2) * 512 + 1 * j.val = j.val; rw [e1]; omega

/-! ## The accumulator along one row block -/

/-- The term of entry (r, j) of A · S at inner position q. -/
def term (A : Mat 8192 8192) (S : Mat 8192 512) (r : Fin 8192) (j : Fin 512) (q : Fin 8192) : EReal :=
  A (ix2 r q) * S (ix2 q j)

/-- The product of tile (i, k) of A with row tile k of S, at entry (p, j): the terms of entry (512·i + p, j) of A · S
    at the inner positions of tile k. -/
theorem tile_terms (c : Dev nD) (t : Fin cfg1.N) (i : Fin 16) (k : Fin 4) (hi : t.val / 4 = i.val) (hk : t.val % 4 = k.val)
    (p j : Fin 512) :
    ∑ q : Fin 2048, tileA V c t (ix2 p q) * tileS V c t (ix2 q j)
      = ∑ q : Fin 2048, term (arrA V c) (arrS V c) (blockRow i p) j (tileCol k q) :=
  Finset.sum_congr rfl fun q _ => by
    rw [tile_a_apply V c t i k hi hk p q, tile_s_apply V c t k hk q j]; rfl

/-- At the first tile of row block i the accumulator's entry is zero plus tile 0's terms. -/
theorem acc_first_apply (c : Dev nD) (t : Fin cfg1.N) (i : Fin 16) (hi : t.val / 4 = i.val) (h0 : t.val % 4 = 0)
    (p j : Fin 512) :
    Aggregate.acc V c t.val t.isLt (ix2 p j)
      = 0 + ∑ q : Fin 2048, term (arrA V c) (arrS V c) (blockRow i p) j (tileCol 0 q) := by
  rw [Aggregate.acc_first V c t h0]
  refine (accumulate_apply (tileA V c t) (tileS V c t) (k1_pay1 (F := Ideal)) p j).trans ?_
  rw [zero_block_apply, tile_terms V c t i 0 hi h0 p j]

/-- At a later tile k it is the entry after the point before plus tile k's terms. -/
theorem acc_next_apply (c : Dev nD) (t : Fin cfg1.N) (i : Fin 16) (k : Fin 4) (hi : t.val / 4 = i.val) (hk : t.val % 4 = k.val)
    (h0 : ¬t.val % 4 = 0) (p j : Fin 512) :
    Aggregate.acc V c t.val t.isLt (ix2 p j)
      = Aggregate.acc V c (t.val - 1) (Nat.lt_of_le_of_lt (Nat.sub_le _ _) t.isLt) (ix2 p j)
        + ∑ q : Fin 2048, term (arrA V c) (arrS V c) (blockRow i p) j (tileCol k q) := by
  rw [Aggregate.acc_next V c t h0]
  refine (accumulate_apply (tileA V c t) (tileS V c t)
    (Aggregate.acc V c (t.val - 1) (Nat.lt_of_le_of_lt (Nat.sub_le _ _) t.isLt)) p j).trans ?_
  rw [tile_terms V c t i k hi hk p j]

/-- The accumulator depends on the point's position only. -/
theorem acc_congr (c : Dev nD) {n n' : ℕ} (e : n = n') (h : n < cfg1.N) (h' : n' < cfg1.N) :
    Aggregate.acc V c n h = Aggregate.acc V c n' h' := by subst e; rfl

/-- After the last tile of row block i the accumulator's entry (p, j) is entry (512·i + p, j) of A · S: the four
    tiles' terms, added in order from zero, are all 8192 terms. -/
theorem acc_last_apply (c : Dev nD) (i : Fin 16) (h : 4 * i.val + 3 < cfg1.N) (p j : Fin 512) :
    Aggregate.acc V c (4 * i.val + 3) h (ix2 p j)
      = ∑ q : Fin 8192, term (arrA V c) (arrS V c) (blockRow i p) j q := by
  have hN : cfg1.N = 64 := N_1
  have hi := i.isLt
  have h0 : 4 * i.val < cfg1.N := by omega
  have h1 : 4 * i.val + 1 < cfg1.N := by omega
  have h2 : 4 * i.val + 2 < cfg1.N := by omega
  have s0 := acc_first_apply V c ⟨4 * i.val, h0⟩ i (by show 4 * i.val / 4 = i.val; omega) (by show 4 * i.val % 4 = 0; omega) p j
  have s1 := acc_next_apply V c ⟨4 * i.val + 1, h1⟩ i 1 (by show (4 * i.val + 1) / 4 = i.val; omega)
    (by show (4 * i.val + 1) % 4 = 1; omega) (by show ¬(4 * i.val + 1) % 4 = 0; omega) p j
  have s2 := acc_next_apply V c ⟨4 * i.val + 2, h2⟩ i 2 (by show (4 * i.val + 2) / 4 = i.val; omega)
    (by show (4 * i.val + 2) % 4 = 2; omega) (by show ¬(4 * i.val + 2) % 4 = 0; omega) p j
  have s3 := acc_next_apply V c ⟨4 * i.val + 3, h⟩ i 3 (by show (4 * i.val + 3) / 4 = i.val; omega)
    (by show (4 * i.val + 3) % 4 = 3; omega) (by show ¬(4 * i.val + 3) % 4 = 0; omega) p j
  dsimp only at s0 s1 s2 s3
  rw [acc_congr V c (show 4 * i.val + 1 - 1 = 4 * i.val by omega) _ h0, s0] at s1
  rw [acc_congr V c (show 4 * i.val + 2 - 1 = 4 * i.val + 1 by omega) _ h1, s1] at s2
  rw [acc_congr V c (show 4 * i.val + 3 - 1 = 4 * i.val + 2 by omega) _ h2, s2] at s3
  exact s3.trans (tile_walk (term (arrA V c) (arrS V c) (blockRow i p) j))

/-! ## From the row blocks to the array -/

/-- What a last-tile point writes back is its row block of A · S plus the bias row. -/
theorem flushed_eq (c : Dev nD) (t : Fin cfg1.N) (hf : (cfg1.win 3).flush t = true) :
    (Aggregate.dat V c).flushed 3 t
      = ((cfg1.win 3).blk t).view.read (Elt Ideal) (aggregate (arrA V c) (arrS V c) (arrB V c)) := by
  have hN : cfg1.N = 64 := N_1
  have h3 : t.val % 4 = 3 := (flush1_3 t).mp hf
  have ht := t.isLt
  obtain ⟨-, -, -, ⟨e0, e1⟩⟩ := index_maps t
  obtain ⟨i, hi⟩ : ∃ i : Fin 16, t.val / 4 = i.val := ⟨⟨t.val / 4, by omega⟩, rfl⟩
  have h' : 4 * i.val + 3 < cfg1.N := by omega
  show (cfg1.win 3).cut (grid1.coords t) ((Aggregate.dat V c).after 3 t) = _
  rw [Aggregate.after_o]
  funext y
  obtain ⟨p, j, rfl⟩ : ∃ (p j : Fin 512), y = ix2 p j := ⟨y 0, y 1, eq_ix2 y⟩
  rw [View.read_apply]
  have hemb : ((cfg1.win 3).blk t).view.emb (ix2 p j) = ix2 (blockRow i p) j := funext fun a => Fin.ext (by
    match a with
    | ⟨0, _⟩ => show win1_3.index t (0 : Fin 2) * 512 + 1 * p.val = 512 * i.val + p.val; rw [e0, hi]; omega
    | ⟨1, _⟩ => show win1_3.index t (1 : Fin 2) * 512 + 1 * j.val = j.val; rw [e1]; omega)
  rw [hemb]
  show k1_pay3 (Aggregate.acc V c t.val t.isLt) (biasBlock V c t) (ix2 p j) = aggregateAt (arrA V c) (arrS V c) (arrB V c) (blockRow i p) j
  refine (add_bias_apply (Aggregate.acc V c t.val t.isLt) (biasBlock V c t) p j).trans ?_
  rw [bias_apply V c t j, acc_congr V c (show t.val = 4 * i.val + 3 by omega) t.isLt h', acc_last_apply V c i h' p j]
  rfl

/-- An entry of the result array lies in a point's output block when its row lies in the block's 512 rows. -/
theorem mem_out_block (t : Fin cfg1.N) (x : S8192x512.Idx) :
    x ∈ ((cfg1.win 3).blk t).view.set
      ↔ ∀ a : Fin 2, win1_3.index t a * S512x512.size a ≤ (x a).val ∧ (x a).val < win1_3.index t a * S512x512.size a + S512x512.size a := by
  show x ∈ ((View.whole main_v2).slice (win1_3.rect t)).set ↔ _
  rw [View.set_slice_whole, Rect.mem_set_unit]
  exact Iff.rfl

/-- Every entry of the result array is written back by the last tile of its row block: row r by point 4·(r / 512) + 3. -/
theorem cover (x : S8192x512.Idx) :
    ∃ t : Fin cfg1.N, (cfg1.win 3).flush t = true ∧ x ∈ ((cfg1.win 3).blk t).view.set := by
  have hN : cfg1.N = 64 := N_1
  have h0 : (x 0).val < 8192 := (x 0).isLt
  have h1 : (x 1).val < 512 := (x 1).isLt
  have ht : 4 * ((x 0).val / 512) + 3 < cfg1.N := by omega
  obtain ⟨-, -, -, ⟨e0, e1⟩⟩ := index_maps ⟨4 * ((x 0).val / 512) + 3, ht⟩
  dsimp only at e0 e1
  refine ⟨⟨4 * ((x 0).val / 512) + 3, ht⟩, (flush1_3 _).mpr (by show (4 * ((x 0).val / 512) + 3) % 4 = 3; omega), ?_⟩
  rw [mem_out_block]
  intro a
  match a with
  | ⟨0, _⟩ =>
    show win1_3.index ⟨4 * ((x 0).val / 512) + 3, ht⟩ (0 : Fin 2) * 512 ≤ (x 0).val
      ∧ (x 0).val < win1_3.index ⟨4 * ((x 0).val / 512) + 3, ht⟩ (0 : Fin 2) * 512 + 512
    rw [e0]; omega
  | ⟨1, _⟩ =>
    show win1_3.index ⟨4 * ((x 0).val / 512) + 3, ht⟩ (1 : Fin 2) * 512 ≤ (x 1).val
      ∧ (x 1).val < win1_3.index ⟨4 * ((x 0).val / 512) + 3, ht⟩ (1 : Fin 2) * 512 + 512
    rw [e1]; omega

/-- After the call the result array holds A · S plus the bias row, A, S and the bias row being the arrays behind the
    first three windows as the call found them. -/
theorem final (c : Dev nD) :
    (Aggregate.dat V c).arrAt 3 cfg1.N = aggregate (V c main_arg1) (V c main_v0) (V c main_v1) :=
  (Aggregate.dat V c).arrAt_eq_of_cover 3 (aggregate (arrA V c) (arrS V c) (arrB V c)) (flushed_eq V c) cover

end Cert.KernelIdeal.AggregateValue

end
-- ==== Proof.RefValue.lean ====
/-
  The reference program computes the graph convolution of the specification.

  Its five host operations are  S = X · W,  Y = A · S,  the bias b as a [1, 512] row,  that row repeated over the
  8192 rows, and  Y + bias.  Read at an index (r, j) over the extended reals this is
      (∑ q < 8192, A (r, q) * (∑ k < 512, X (q, k) * W (k, j))) + b j,
  which is the specification's `aggregate A (support X W) (biasRow b)` at (r, j).
-/
import proofs.«160564_j996432413322_1_alg».proof.Defs
import proofs.«160564_j996432413322_1_alg».proof.Proof.Gen.ReferenceIdeal.Run
import proofs.«160564_j996432413322_1_alg».proof.Proof.Gen.ReferenceIdeal.Read
import proofs.«160564_j996432413322_1_alg».proof.Proof.Spec

noncomputable section

open scoped BigOperators

namespace Cert.ReferenceIdeal.RefValue

open Idealize.ShloMosaic Idealize.ShloMosaic.ValueIdx Cert.ReferenceIdeal Cert.ReferenceIdeal.Read Cert.GraphConv

/-! ## The reference's index functions, at an index given by its coordinates -/

/-- In the product A · S at (r, j), the q-th term reads A at (r, q). -/
private theorem aggregate_left (r : Fin 8192) (j : Fin 512) (q : Fin 8192) :
    lidx_main_v1 (ix2 r j) q = ix2 r q :=
  funext fun a => Fin.ext (by match a with | ⟨0, _⟩ => rfl | ⟨1, _⟩ => rfl)

/-- In the product A · S at (r, j), the q-th term reads S at (q, j). -/
private theorem aggregate_right (r : Fin 8192) (j : Fin 512) (q : Fin 8192) :
    ridx_main_v1 (ix2 r j) q = ix2 q j :=
  funext fun a => Fin.ext (by match a with | ⟨0, _⟩ => rfl | ⟨1, _⟩ => rfl)

/-- In the product X · W at (q, j), the k-th term reads X at (q, k). -/
private theorem support_left (q : Fin 8192) (j : Fin 512) (k : Fin 512) :
    lidx_main_v0 (ix2 q j) k = ix2 q k :=
  funext fun a => Fin.ext (by match a with | ⟨0, _⟩ => rfl | ⟨1, _⟩ => rfl)

/-- In the product X · W at (q, j), the k-th term reads W at (k, j). -/
private theorem support_right (q : Fin 8192) (j : Fin 512) (k : Fin 512) :
    ridx_main_v0 (ix2 q j) k = ix2 k j :=
  funext fun a => Fin.ext (by match a with | ⟨0, _⟩ => rfl | ⟨1, _⟩ => rfl)

/-- The bias row repeated over the 8192 rows reads, at (r, j), the one row at (0, j). -/
private theorem bias_rows (r : Fin 8192) (j : Fin 512) :
    idx_main_v3 (ix2 r j) = ix2 (0 : Fin 1) j :=
  funext fun a => Fin.ext (by match a with | ⟨0, _⟩ => rfl | ⟨1, _⟩ => rfl)

/-- The bias laid out as a [1, 512] row reads, at (0, j), the vector at j. -/
private theorem bias_row (j : Fin 512) :
    idx_main_v2 (ix2 (0 : Fin 1) j) = ix1 j :=
  funext fun a => Fin.ext (by match a with | ⟨0, _⟩ => rfl)

/-! ## The specification, at an index given by its coordinates -/

/-- The projection at (q, j) is the sum over k of X (q, k) * W (k, j). -/
private theorem support_at (X : Mat 8192 512) (W : Mat 512 512) (q : Fin 8192) (j : Fin 512) :
    support X W (ix2 q j) = ∑ k : Fin 512, X (ix2 q k) * W (ix2 k j) := rfl

/-- The aggregation at (r, j) is the sum over q of A (r, q) * S (q, j), plus the bias row at (0, j). -/
private theorem aggregate_at (A : Mat 8192 8192) (S : Mat 8192 512) (b : Mat 1 512) (r : Fin 8192) (j : Fin 512) :
    aggregate A S b (ix2 r j) = (∑ q : Fin 8192, A (ix2 r q) * S (ix2 q j)) + b (ix2 (0 : Fin 1) j) := rfl

/-- The bias row at (0, j) is the bias vector at j. -/
private theorem biasRow_at (b : (⟨1, ![512]⟩ : Shape).Idx → EReal) (j : Fin 512) :
    biasRow b (ix2 (0 : Fin 1) j) = b (ix1 j) := rfl

/-! ## The reference is the specification -/

/-- The reference's result, as a function of its four arguments, is the specification's graph convolution:
    at (r, j) both are (∑ q, A (r, q) * ∑ k, X (q, k) * W (k, j)) + b j. The two sums agree term by term. -/
theorem ref_eq (x0 : (⟨S8192x512, .f32⟩ : BufTy).Contents (Elt Ideal)) (x1 : (⟨S8192x8192, .f32⟩ : BufTy).Contents (Elt Ideal))
    (x2 : (⟨S512x512, .f32⟩ : BufTy).Contents (Elt Ideal)) (x3 : (⟨S512, .f32⟩ : BufTy).Contents (Elt Ideal)) :
    val_main_v4 (F := Ideal) x0 x1 x2 x3 = aggregate x1 (support x0 x2) (biasRow x3) := by
  funext i
  obtain ⟨r, j, rfl⟩ : ∃ (r : Fin 8192) (j : Fin 512), i = ix2 r j := ⟨i 0, i 1, eq_ix2 i⟩
  rw [val_main_v4_apply, val_main_v1_apply, val_main_v3_apply, val_main_v2_apply, Ideal.addf_def,
    bias_rows, bias_row, aggregate_at, biasRow_at]
  congr 1
  refine Finset.sum_congr rfl fun q _ => ?_
  rw [aggregate_left, aggregate_right, val_main_v0_apply, support_at]
  congr 1
  refine Finset.sum_congr rfl fun k _ => ?_
  rw [support_left, support_right]

end Cert.ReferenceIdeal.RefValue

end
-- ==== Proof.lean ====
/-
  The certificate of the graph-convolution kernel against its reference.

  Both idealized programs compute, over the extended reals,  A · (X · W) + b  (the bias b under every row):
  the reference as two whole matrix products and an addition; the kernel as a projection call that forms X · W sixteen
  row blocks at a time, a host line that lays b out as a row, and an aggregation call that walks each row block of A in
  four column tiles, accumulating the tile products from zero and adding the bias row after the last tile. Walking the
  tiles in order is the whole sum because addition of extended reals is associative and commutative; no finiteness of
  the inputs is used. A change of float format is the identity over the extended reals, so the kernel's narrowing of
  its matrix-product operands does not show.

  The three frames: the kernel's two programs run to the end with their arguments unchanged (the run of the whole
  program over both calls); the reference is a straight line of host operations. The ideal pass rewrote nothing, so the
  idealization claim is trivial.
-/
import proofs.«160564_j996432413322_1_alg».proof.Defs
import proofs.«160564_j996432413322_1_alg».proof.Proof.Gen.Kernel
import proofs.«160564_j996432413322_1_alg».proof.Proof.Gen.KernelIdeal
import proofs.«160564_j996432413322_1_alg».proof.Proof.Gen.ReferenceIdeal
import proofs.«160564_j996432413322_1_alg».proof.Proof.Gen.Pre_finite_inputs
import proofs.«160564_j996432413322_1_alg».proof.Proof.Kernel.Whole
import proofs.«160564_j996432413322_1_alg».proof.Proof.KernelIdeal.Whole
import proofs.«160564_j996432413322_1_alg».proof.Proof.KernelIdeal.ProjectValue
import proofs.«160564_j996432413322_1_alg».proof.Proof.KernelIdeal.AggregateValue
import proofs.«160564_j996432413322_1_alg».proof.Proof.RefValue
import Idealize.ShloMosaic.Lib.ValueLayout
import Idealize.ShloMosaic.Adequacy
import Idealize.ShloMosaic.Init

noncomputable section

namespace Cert.Proof

open Idealize.ShloMosaic Idealize.ShloMosaic.TcCoe Idealize.ShloMosaic.ValueIdx Idealize.SL.Sem Cert.GraphConv

/-- The bias vector re-laid as a [1, 512] row by the kernel's host line is the specification's bias row. -/
theorem bias_row_eq (b : (⟨1, ![512]⟩ : Shape).Idx → EReal) (h : (⟨1, ![512]⟩ : Shape).ShapeCasts ⟨2, ![1, 512]⟩) :
    shapeCast (⟨2, ![1, 512]⟩ : Shape) b h = biasRow b := by
  funext j
  obtain ⟨u, i, rfl⟩ : ∃ (u : Fin 1) (i : Fin 512), j = ix2 u i := ⟨j 0, j 1, eq_ix2 j⟩
  exact shapeCast_a_1a_apply b h u i

/-- The graph convolution of the program's four arguments as launched. -/
abbrev result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v2) :=
  aggregate (m ((c.tc : Thread Cert.KernelIdeal.nD Cert.KernelIdeal.τ).loc Cert.KernelIdeal.main_arg1))
    (support (m ((c.tc : Thread Cert.KernelIdeal.nD Cert.KernelIdeal.τ).loc Cert.KernelIdeal.main_arg0))
      (m ((c.tc : Thread Cert.KernelIdeal.nD Cert.KernelIdeal.τ).loc Cert.KernelIdeal.main_arg2)))
    (biasRow (m ((c.tc : Thread Cert.KernelIdeal.nD Cert.KernelIdeal.τ).loc Cert.KernelIdeal.main_arg3)))

/-- The idealized kernel's result array ends at the graph convolution of its arguments: the aggregation call leaves
    A · S plus the bias row of what it is entered with, which is A as launched, S = X · W as the projection call left
    it, and the bias vector as one row. -/
theorem kernel_result (m : (ℓ : Loc Cert.KernelIdeal.nD Cert.KernelIdeal.τ Cert.KernelIdeal.sig) → Buf (Elt Ideal) ℓ) (c : Dev Cert.KernelIdeal.nD) :
    (Cert.KernelIdeal.Aggregate.dat (Cert.KernelIdeal.Whole.E2 m) c).arrAt 3 Cert.KernelIdeal.cfg1.N = result m c := by
  rw [Cert.KernelIdeal.AggregateValue.final (Cert.KernelIdeal.Whole.E2 m) c, Cert.KernelIdeal.Whole.E2_arg1,
    Cert.KernelIdeal.Whole.E2_v0, Cert.KernelIdeal.ProjectValue.final (Cert.KernelIdeal.Whole.E0 m) c,
    Cert.KernelIdeal.Whole.E2_v1]
  exact congrArg (aggregate _ _) (bias_row_eq _ _)

theorem frame_k : Cert.frame_Kernel := fun m ρ _ => Cert.Kernel.Whole.frame (F := Bits) m ρ
theorem frame_ki : Cert.frame_KernelIdeal := fun m ρ _ => Cert.KernelIdeal.Whole.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the four arguments, both idealized programs end with their results at the graph
    convolution of those arguments. -/
theorem algebraic : Cert.algebraic_KernelIdeal_ReferenceIdeal := by
  intro m ρ m' ρ' _ hagree
  refine ⟨fun c => result m c, ?_, ?_⟩
  · exact (θ_run Cert.KernelIdeal.defs _ _).mono (fun _ h c => ⟨(h c).1.trans (kernel_result m c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v4_eq, Cert.ReferenceIdeal.RefValue.ref_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
